-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x76 : Shape := ⟨2, ![262144, 76]⟩
abbrev S300x76 : Shape := ⟨2, ![300, 76]⟩
abbrev S300 : Shape := ⟨1, ![300]⟩
abbrev S200x300 : Shape := ⟨2, ![200, 300]⟩
abbrev S200 : Shape := ⟨1, ![200]⟩
abbrev S100x200 : Shape := ⟨2, ![100, 200]⟩
abbrev S100 : Shape := ⟨1, ![100]⟩
abbrev S10x100 : Shape := ⟨2, ![10, 100]⟩
abbrev S10 : Shape := ⟨1, ![10]⟩
abbrev S_ : Shape := ⟨0, ![]⟩

class Facts : Prop where
  bcast_S_S262144x76 : S_.BroadcastsInDim S262144x76 (![] : Fin 0 → Fin S262144x76.rank)
  reducesTo_S262144x76_S_d0_1 : S262144x76.ReducesTo [0, 1] S_
  h_S_ : 0 < S_.numel
  bcast_S_S300x76 : S_.BroadcastsInDim S300x76 (![] : Fin 0 → Fin S300x76.rank)
  reducesTo_S300x76_S_d0_1 : S300x76.ReducesTo [0, 1] S_
  bcast_S_S300 : S_.BroadcastsInDim S300 (![] : Fin 0 → Fin S300.rank)
  reducesTo_S300_S_d0 : S300.ReducesTo [0] S_
  bcast_S_S200x300 : S_.BroadcastsInDim S200x300 (![] : Fin 0 → Fin S200x300.rank)
  reducesTo_S200x300_S_d0_1 : S200x300.ReducesTo [0, 1] S_
  bcast_S_S200 : S_.BroadcastsInDim S200 (![] : Fin 0 → Fin S200.rank)
  reducesTo_S200_S_d0 : S200.ReducesTo [0] S_
  bcast_S_S100x200 : S_.BroadcastsInDim S100x200 (![] : Fin 0 → Fin S100x200.rank)
  reducesTo_S100x200_S_d0_1 : S100x200.ReducesTo [0, 1] S_
  bcast_S_S100 : S_.BroadcastsInDim S100 (![] : Fin 0 → Fin S100.rank)
  reducesTo_S100_S_d0 : S100.ReducesTo [0] S_
  bcast_S_S10x100 : S_.BroadcastsInDim S10x100 (![] : Fin 0 → Fin S10x100.rank)
  reducesTo_S10x100_S_d0_1 : S10x100.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg7 : FVec F S10x100 .f32) (main_arg8 : FVec F S10 .f32) (main_v33 : IVec S_ 1) : IVec S_ 1 :=
  let main_v34 : FVec F S10x100 .f32 := Host.absf main_arg7
  let main_cst_12 : FVec F S_ .f32 := constant S_ .f32 0x7F800000#32
  let main_v35 : FVec F S10x100 .f32 := broadcastInDim S10x100 ![] bcast_S_S10x100 main_cst_12
  let main_v36 : IVec S10x100 1 := cmpf .olt main_v34 main_v35
  let main_c_13 : IVec S_ 1 := constantI S_ 1 1#1
  let main_v37 : IVec S_ 1 := (fun x v => Host.reduce IntOp.andi x v reducesTo_S10x100_S_d0_1 h_S_) main_v36 main_c_13
  let main_v38 : IVec S_ 1 := andi main_v33 main_v37
  let main_v39 : FVec F S10 .f32 := Host.absf main_arg8
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg4 : FVec F S200 .f32) (main_arg5 : FVec F S100x200 .f32) (main_arg6 : FVec F S100 .f32) (main_arg7 : FVec F S10x100 .f32) (main_arg8 : FVec F S10 .f32) (main_v13 : IVec S_ 1) (main_v16 : IVec S200x300 1) : IVec S_ 1 :=
  let main_c_5 : IVec S_ 1 := constantI S_ 1 1#1
  let main_v17 : IVec S_ 1 := (fun x v => Host.reduce IntOp.andi x v reducesTo_S200x300_S_d0_1 h_S_) main_v16 main_c_5
  let main_v18 : IVec S_ 1 := andi main_v13 main_v17
  let main_v19 : FVec F S200 .f32 := Host.absf main_arg4
  let main_cst_6 : FVec F S_ .f32 := constant S_ .f32 0x7F800000#32
  let main_v20 : FVec F S200 .f32 := broadcastInDim S200 ![] bcast_S_S200 main_cst_6
  let main_v21 : IVec S200 1 := cmpf .olt main_v19 main_v20
  let main_c_7 : IVec S_ 1 := constantI S_ 1 1#1
  let main_v22 : IVec S_ 1 := (fun x v => Host.reduce IntOp.andi x v reducesTo_S200_S_d0 h_S_) main_v21 main_c_7
  let main_v23 : IVec S_ 1 := andi main_v18 main_v22
  let main_v24 : FVec F S100x200 .f32 := Host.absf main_arg5
  let main_cst_8 : FVec F S_ .f32 := constant S_ .f32 0x7F800000#32
  let main_v25 : FVec F S100x200 .f32 := broadcastInDim S100x200 ![] bcast_S_S100x200 main_cst_8
  let main_v26 : IVec S100x200 1 := cmpf .olt main_v24 main_v25
  let main_c_9 : IVec S_ 1 := constantI S_ 1 1#1
  let main_v27 : IVec S_ 1 := (fun x v => Host.reduce IntOp.andi x v reducesTo_S100x200_S_d0_1 h_S_) main_v26 main_c_9
  let main_v28 : IVec S_ 1 := andi main_v23 main_v27
  let main_v29 : FVec F S100 .f32 := Host.absf main_arg6
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  fn_part2 (F := F) main_arg7 main_arg8 main_v33

def fn {F : FTy → Type} [FloatOps F] (main_arg0 : FVec F S262144x76 .f32) (main_arg1 : FVec F S300x76 .f32) (main_arg2 : FVec F S300 .f32) (main_arg3 : FVec F S200x300 .f32) (main_arg4 : FVec F S200 .f32) (main_arg5 : FVec F S100x200 .f32) (main_arg6 : FVec F S100 .f32) (main_arg7 : FVec F S10x100 .f32) (main_arg8 : FVec F S10 .f32) : IVec S_ 1 :=
  let main_v0 : FVec F S262144x76 .f32 := Host.absf main_arg0
  let main_cst : FVec F S_ .f32 := constant S_ .f32 0x7F800000#32
  let main_v1 : FVec F S262144x76 .f32 := broadcastInDim S262144x76 ![] bcast_S_S262144x76 main_cst
  let main_v2 : IVec S262144x76 1 := cmpf .olt main_v0 main_v1
  let main_c : IVec S_ 1 := constantI S_ 1 1#1
  let main_v3 : IVec S_ 1 := (fun x v => Host.reduce IntOp.andi x v reducesTo_S262144x76_S_d0_1 h_S_) main_v2 main_c
  let main_v4 : FVec F S300x76 .f32 := Host.absf main_arg1
  let main_cst_0 : FVec F S_ .f32 := constant S_ .f32 0x7F800000#32
  let main_v5 : FVec F S300x76 .f32 := broadcastInDim S300x76 ![] bcast_S_S300x76 main_cst_0
  let main_v6 : IVec S300x76 1 := cmpf .olt main_v4 main_v5
  let main_c_1 : IVec S_ 1 := constantI S_ 1 1#1
  let main_v7 : IVec S_ 1 := (fun x v => Host.reduce IntOp.andi x v reducesTo_S300x76_S_d0_1 h_S_) main_v6 main_c_1
  let main_v8 : IVec S_ 1 := andi main_v3 main_v7
  let main_v9 : FVec F S300 .f32 := Host.absf main_arg2
  let main_cst_2 : FVec F S_ .f32 := constant S_ .f32 0x7F800000#32
  let main_v10 : FVec F S300 .f32 := broadcastInDim S300 ![] bcast_S_S300 main_cst_2
  let main_v11 : IVec S300 1 := cmpf .olt main_v9 main_v10
  let main_c_3 : IVec S_ 1 := constantI S_ 1 1#1
  let main_v12 : IVec S_ 1 := (fun x v => Host.reduce IntOp.andi x v reducesTo_S300_S_d0 h_S_) main_v11 main_c_3
  let main_v13 : IVec S_ 1 := andi main_v8 main_v12
  let main_v14 : FVec F S200x300 .f32 := Host.absf main_arg3
  let main_cst_4 : FVec F S_ .f32 := constant S_ .f32 0x7F800000#32
  let main_v15 : FVec F S200x300 .f32 := broadcastInDim S200x300 ![] bcast_S_S200x300 main_cst_4
  let main_v16 : IVec S200x300 1 := cmpf .olt main_v14 main_v15
  fn_part1 (F := F) main_arg4 main_arg5 main_arg6 main_arg7 main_arg8 main_v13 main_v16
-- ==== Kernel.lean ====
abbrev S262144x76 : Shape := ⟨2, ![262144, 76]⟩
abbrev S300x76 : Shape := ⟨2, ![300, 76]⟩
abbrev S300 : Shape := ⟨1, ![300]⟩
abbrev S200x300 : Shape := ⟨2, ![200, 300]⟩
abbrev S200 : Shape := ⟨1, ![200]⟩
abbrev S100x200 : Shape := ⟨2, ![100, 200]⟩
abbrev S100 : Shape := ⟨1, ![100]⟩
abbrev S10x100 : Shape := ⟨2, ![10, 100]⟩
abbrev S10 : Shape := ⟨1, ![10]⟩
abbrev S1x300 : Shape := ⟨2, ![1, 300]⟩
abbrev S1x200 : Shape := ⟨2, ![1, 200]⟩
abbrev S1x100 : Shape := ⟨2, ![1, 100]⟩
abbrev S1x10 : Shape := ⟨2, ![1, 10]⟩
abbrev S262144x10 : Shape := ⟨2, ![262144, 10]⟩
abbrev S2048x76 : Shape := ⟨2, ![2048, 76]⟩
abbrev S2048x10 : Shape := ⟨2, ![2048, 10]⟩
abbrev S76x300 : Shape := ⟨2, ![76, 300]⟩
abbrev S2048x300 : Shape := ⟨2, ![2048, 300]⟩
abbrev S300x200 : Shape := ⟨2, ![300, 200]⟩
abbrev S2048x200 : Shape := ⟨2, ![2048, 200]⟩
abbrev S200x100 : Shape := ⟨2, ![200, 100]⟩
abbrev S2048x100 : Shape := ⟨2, ![2048, 100]⟩
abbrev S100x10 : Shape := ⟨2, ![100, 10]⟩

abbrev nBuf : Space → Nat
  | .hbm => 14
  | .vmem => 12
  | .smem => 0
  | _ => 0

abbrev bufTy : (tb : Table) → Fin (tcTables nBuf tb) → BufTy
  | .hbm, ⟨0, _⟩ => ⟨S262144x76, .f32⟩
  | .hbm, ⟨1, _⟩ => ⟨S300x76, .f32⟩
  | .hbm, ⟨2, _⟩ => ⟨S300, .f32⟩
  | .hbm, ⟨3, _⟩ => ⟨S200x300, .f32⟩
  | .hbm, ⟨4, _⟩ => ⟨S200, .f32⟩
  | .hbm, ⟨5, _⟩ => ⟨S100x200, .f32⟩
  | .hbm, ⟨6, _⟩ => ⟨S100, .f32⟩
  | .hbm, ⟨7, _⟩ => ⟨S10x100, .f32⟩
  | .hbm, ⟨8, _⟩ => ⟨S10, .f32⟩
  | .hbm, ⟨9, _⟩ => ⟨S1x300, .f32⟩
  | .hbm, ⟨10, _⟩ => ⟨S1x200, .f32⟩
  | .hbm, ⟨11, _⟩ => ⟨S1x100, .f32⟩
  | .hbm, ⟨12, _⟩ => ⟨S1x10, .f32⟩
  | .hbm, ⟨13, _⟩ => ⟨S262144x10, .f32⟩
  | .local _ .vmem, ⟨0, _⟩ => ⟨S2048x76, .f32⟩
  | .local _ .vmem, ⟨1, _⟩ => ⟨S2048x76, .f32⟩
  | .local _ .vmem, ⟨2, _⟩ => ⟨S300x76, .f32⟩
  | .local _ .vmem, ⟨3, _⟩ => ⟨S1x300, .f32⟩
  | .local _ .vmem, ⟨4, _⟩ => ⟨S200x300, .f32⟩
  | .local _ .vmem, ⟨5, _⟩ => ⟨S1x200, .f32⟩
  | .local _ .vmem, ⟨6, _⟩ => ⟨S100x200, .f32⟩
  | .local _ .vmem, ⟨7, _⟩ => ⟨S1x100, .f32⟩
  | .local _ .vmem, ⟨8, _⟩ => ⟨S10x100, .f32⟩
  | .local _ .vmem, ⟨9, _⟩ => ⟨S1x10, .f32⟩
  | .local _ .vmem, ⟨10, _⟩ => ⟨S2048x10, .f32⟩
  | .local _ .vmem, ⟨11, _⟩ => ⟨S2048x10, .f32⟩
  | _, _ => ⟨S262144x76, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x76 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x76 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S200x300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x200 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S100x200 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x100 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10x100 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x10 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S300_S1x300 : S300.ShapeCasts S1x300
  shapeCasts_S200_S1x200 : S200.ShapeCasts S1x200
  shapeCasts_S100_S1x100 : S100.ShapeCasts S1x100
  shapeCasts_S10_S1x10 : S10.ShapeCasts S1x10
  inb_S2048x76_S2048x76_0_0 : ∀ a, (![0, 0] : Fin 2 → Nat) a + S2048x76.size a ≤ S2048x76.size a
  h_S2048x76 : 0 < S2048x76.numel
  inb_S300x76_S300x76_0_0 : ∀ a, (![0, 0] : Fin 2 → Nat) a + S300x76.size a ≤ S300x76.size a
  h_S300x76 : 0 < S300x76.numel
  transposes_S300x76_p1_0_S76x300 : S300x76.Transposes [1, 0] S76x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S2048x300 : S1x300.Broadcasts S2048x300
  inb_S200x300_S200x300_0_0 : ∀ a, (![0, 0] : Fin 2 → Nat) a + S200x300.size a ≤ S200x300.size a
  h_S200x300 : 0 < S200x300.numel
  transposes_S200x300_p1_0_S300x200 : S200x300.Transposes [1, 0] S300x200
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S2048x200 : S1x200.Broadcasts S2048x200
  inb_S100x200_S100x200_0_0 : ∀ a, (![0, 0] : Fin 2 → Nat) a + S100x200.size a ≤ S100x200.size a
  h_S100x200 : 0 < S100x200.numel
  transposes_S100x200_p1_0_S200x100 : S100x200.Transposes [1, 0] S200x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S2048x100 : S1x100.Broadcasts S2048x100
  inb_S10x100_S10x100_0_0 : ∀ a, (![0, 0] : Fin 2 → Nat) a + S10x100.size a ≤ S10x100.size a
  h_S10x100 : 0 < S10x100.numel
  transposes_S10x100_p1_0_S100x10 : S10x100.Transposes [1, 0] S100x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2048x10 : S1x10.Broadcasts S2048x10
  inb_S2048x10_S2048x10_0_0 : ∀ a, (![0, 0] : Fin 2 → Nat) a + S2048x10.size a ≤ S2048x10.size a
  h_S2048x10 : 0 < S2048x10.numel
  dot_S2048x76_S76x300_S2048x300_1_0_0_1_n_n_wf : DotDims.WF S2048x76 S76x300 S2048x300 [1] [0] [0] [1] [] []
  dot_S2048x300_S300x200_S2048x200_1_0_0_1_n_n_wf : DotDims.WF S2048x300 S300x200 S2048x200 [1] [0] [0] [1] [] []
  dot_S2048x200_S200x100_S2048x100_1_0_0_1_n_n_wf : DotDims.WF S2048x200 S200x100 S2048x100 [1] [0] [0] [1] [] []
  dot_S2048x100_S100x10_S2048x10_1_0_0_1_n_n_wf : DotDims.WF S2048x100 S100x10 S2048x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x76.size a ≤ S262144x76.size a
  hwx0_0 : ∀ i : grid0.Coords, EltTy.bits .f32 = 32 ∨ (Rect.block (s := S262144x76) S2048x76.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x76.size a ≤ S300x76.size a
  hwx0_1 : ∀ i : grid0.Coords, EltTy.bits .f32 = 32 ∨ (Rect.block (s := S300x76) S300x76.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x300.size a ≤ S1x300.size a
  hwx0_2 : ∀ i : grid0.Coords, EltTy.bits .f32 = 32 ∨ (Rect.block (s := S1x300) S1x300.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S200x300.size a ≤ S200x300.size a
  hwx0_3 : ∀ i : grid0.Coords, EltTy.bits .f32 = 32 ∨ (Rect.block (s := S200x300) S200x300.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x200.size a ≤ S1x200.size a
  hwx0_4 : ∀ i : grid0.Coords, EltTy.bits .f32 = 32 ∨ (Rect.block (s := S1x200) S1x200.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S100x200.size a ≤ S100x200.size a
  hwx0_5 : ∀ i : grid0.Coords, EltTy.bits .f32 = 32 ∨ (Rect.block (s := S100x200) S100x200.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x100.size a ≤ S1x100.size a
  hwx0_6 : ∀ i : grid0.Coords, EltTy.bits .f32 = 32 ∨ (Rect.block (s := S1x100) S1x100.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S10x100.size a ≤ S10x100.size a
  hwx0_7 : ∀ i : grid0.Coords, EltTy.bits .f32 = 32 ∨ (Rect.block (s := S10x100) S10x100.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x10.size a ≤ S1x10.size a
  hwx0_8 : ∀ i : grid0.Coords, EltTy.bits .f32 = 32 ∨ (Rect.block (s := S1x10) S1x10.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x10.size a ≤ S262144x10.size a
  hwx0_9 : ∀ i : grid0.Coords, EltTy.bits .f32 = 32 ∨ (Rect.block (s := S262144x10) S2048x10.size (cc0_transform_9 i) (hinb0_9 i)).WholeWords (EltTy.packing .f32)

variable [Facts₀]

def dot_S2048x76_S76x300_S2048x300_1_0_0_1_n_n : DotDims S2048x76 S76x300 S2048x300 where
  lhsContracting := [1]
  rhsContracting := [0]
  lhsNonContracting := [0]
  rhsNonContracting := [1]
  lhsBatch := []
  rhsBatch := []
  wf := dot_S2048x76_S76x300_S2048x300_1_0_0_1_n_n_wf
def dot_S2048x300_S300x200_S2048x200_1_0_0_1_n_n : DotDims S2048x300 S300x200 S2048x200 where
  lhsContracting := [1]
  rhsContracting := [0]
  lhsNonContracting := [0]
  rhsNonContracting := [1]
  lhsBatch := []
  rhsBatch := []
  wf := dot_S2048x300_S300x200_S2048x200_1_0_0_1_n_n_wf
def dot_S2048x200_S200x100_S2048x100_1_0_0_1_n_n : DotDims S2048x200 S200x100 S2048x100 where
  lhsContracting := [1]
  rhsContracting := [0]
  lhsNonContracting := [0]
  rhsNonContracting := [1]
  lhsBatch := []
  rhsBatch := []
  wf := dot_S2048x200_S200x100_S2048x100_1_0_0_1_n_n_wf
def dot_S2048x100_S100x10_S2048x10_1_0_0_1_n_n : DotDims S2048x100 S100x10 S2048x10 where
  lhsContracting := [1]
  rhsContracting := [0]
  lhsNonContracting := [0]
  rhsNonContracting := [1]
  lhsBatch := []
  rhsBatch := []
  wf := dot_S2048x100_S100x10_S2048x10_1_0_0_1_n_n_wf

abbrev win0_0 : Pipeline.Window sig grid0 :=
  Pipeline.Window.ofSpec (Memref.whole main_arg0) S2048x76.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S300x76.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S200x300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x200.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S100x200.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x100.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S10x100.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x10.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S2048x10.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S262144x76 : Shape := ⟨2, ![262144, 76]⟩
abbrev S300x76 : Shape := ⟨2, ![300, 76]⟩
abbrev S300 : Shape := ⟨1, ![300]⟩
abbrev S200x300 : Shape := ⟨2, ![200, 300]⟩
abbrev S200 : Shape := ⟨1, ![200]⟩
abbrev S100x200 : Shape := ⟨2, ![100, 200]⟩
abbrev S100 : Shape := ⟨1, ![100]⟩
abbrev S10x100 : Shape := ⟨2, ![10, 100]⟩
abbrev S10 : Shape := ⟨1, ![10]⟩
abbrev S76x300 : Shape := ⟨2, ![76, 300]⟩
abbrev S262144x300 : Shape := ⟨2, ![262144, 300]⟩
abbrev S1x300 : Shape := ⟨2, ![1, 300]⟩
abbrev S_ : Shape := ⟨0, ![]⟩
abbrev S300x200 : Shape := ⟨2, ![300, 200]⟩
abbrev S262144x200 : Shape := ⟨2, ![262144, 200]⟩
abbrev S1x200 : Shape := ⟨2, ![1, 200]⟩
abbrev S200x100 : Shape := ⟨2, ![200, 100]⟩
abbrev S262144x100 : Shape := ⟨2, ![262144, 100]⟩
abbrev S1x100 : Shape := ⟨2, ![1, 100]⟩
abbrev S100x10 : Shape := ⟨2, ![100, 10]⟩
abbrev S262144x10 : Shape := ⟨2, ![262144, 10]⟩
abbrev S1x10 : Shape := ⟨2, ![1, 10]⟩

abbrev nBuf : Space → Nat
  | .hbm => 125
  | .vmem => 0
  | .smem => 0
  | _ => 0

abbrev bufTy : (tb : Table) → Fin (tcTables nBuf tb) → BufTy
  | .hbm, ⟨0, _⟩ => ⟨S262144x76, .f32⟩
  | .hbm, ⟨1, _⟩ => ⟨S300x76, .f32⟩
  | .hbm, ⟨2, _⟩ => ⟨S300, .f32⟩
  | .hbm, ⟨3, _⟩ => ⟨S200x300, .f32⟩
  | .hbm, ⟨4, _⟩ => ⟨S200, .f32⟩
  | .hbm, ⟨5, _⟩ => ⟨S100x200, .f32⟩
  | .hbm, ⟨6, _⟩ => ⟨S100, .f32⟩
  | .hbm, ⟨7, _⟩ => ⟨S10x100, .f32⟩
  | .hbm, ⟨8, _⟩ => ⟨S10, .f32⟩
  | .hbm, ⟨9, _⟩ => ⟨S76x300, .f32⟩
  | .hbm, ⟨10, _⟩ => ⟨S262144x300, .f32⟩
  | .hbm, ⟨11, _⟩ => ⟨S1x300, .f32⟩
  | .hbm, ⟨12, _⟩ => ⟨S262144x300, .f32⟩
  | .hbm, ⟨13, _⟩ => ⟨S262144x300, .f32⟩
  | .hbm, ⟨14, _⟩ => ⟨S_, .f32⟩
  | .hbm, ⟨15, _⟩ => ⟨S262144x300, .f32⟩
  | .hbm, ⟨16, _⟩ => ⟨S262144x300, .f32⟩
  | .hbm, ⟨17, _⟩ => ⟨S_, .f32⟩
  | .hbm, ⟨18, _⟩ => ⟨S262144x300, .f32⟩
  | .hbm, ⟨19, _⟩ => ⟨S262144x300, .f32⟩
  | .hbm, ⟨20, _⟩ => ⟨S_, .f32⟩
  | .hbm, ⟨21, _⟩ => ⟨S262144x300, .f32⟩
  | .hbm, ⟨22, _⟩ => ⟨S262144x300, .i1⟩
  | .hbm, ⟨23, _⟩ => ⟨S262144x300, .f32⟩
  | .hbm, ⟨24, _⟩ => ⟨S262144x300, .f32⟩
  | .hbm, ⟨25, _⟩ => ⟨S262144x300, .f32⟩
  | .hbm, ⟨26, _⟩ => ⟨S_, .f32⟩
  | .hbm, ⟨27, _⟩ => ⟨S262144x300, .f32⟩
  | .hbm, ⟨28, _⟩ => ⟨S262144x300, .f32⟩
  | .hbm, ⟨29, _⟩ => ⟨S262144x300, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S262144x300, .f32⟩
  | .hbm, ⟨34, _⟩ => ⟨S262144x300, .f32⟩
  | .hbm, ⟨35, _⟩ => ⟨S_, .f32⟩
  | .hbm, ⟨36, _⟩ => ⟨S262144x300, .f32⟩
  | .hbm, ⟨37, _⟩ => ⟨S262144x300, .f32⟩
  | .hbm, ⟨38, _⟩ => ⟨S300x200, .f32⟩
  | .hbm, ⟨39, _⟩ => ⟨S262144x200, .f32⟩
  | .hbm, ⟨40, _⟩ => ⟨S1x200, .f32⟩
  | .hbm, ⟨41, _⟩ => ⟨S262144x200, .f32⟩
  | .hbm, ⟨42, _⟩ => ⟨S262144x200, .f32⟩
  | .hbm, ⟨43, _⟩ => ⟨S_, .f32⟩
  | .hbm, ⟨44, _⟩ => ⟨S262144x200, .f32⟩
  | .hbm, ⟨45, _⟩ => ⟨S262144x200, .f32⟩
  | .hbm, ⟨46, _⟩ => ⟨S_, .f32⟩
  | .hbm, ⟨47, _⟩ => ⟨S262144x200, .f32⟩
  | .hbm, ⟨48, _⟩ => ⟨S262144x200, .f32⟩
  | .hbm, ⟨49, _⟩ => ⟨S_, .f32⟩
  | .hbm, ⟨50, _⟩ => ⟨S262144x200, .f32⟩
  | .hbm, ⟨51, _⟩ => ⟨S262144x200, .i1⟩
  | .hbm, ⟨52, _⟩ => ⟨S262144x200, .f32⟩
  | .hbm, ⟨53, _⟩ => ⟨S262144x200, .f32⟩
  | .hbm, ⟨54, _⟩ => ⟨S262144x200, .f32⟩
  | .hbm, ⟨55, _⟩ => ⟨S_, .f32⟩
  | .hbm, ⟨56, _⟩ => ⟨S262144x200, .f32⟩
  | .hbm, ⟨57, _⟩ => ⟨S262144x200, .f32⟩
  | .hbm, ⟨58, _⟩ => ⟨S262144x200, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S262144x200, .f32⟩
  | .hbm, ⟨63, _⟩ => ⟨S262144x200, .f32⟩
  | .hbm, ⟨64, _⟩ => ⟨S_, .f32⟩
  | .hbm, ⟨65, _⟩ => ⟨S262144x200, .f32⟩
  | .hbm, ⟨66, _⟩ => ⟨S262144x200, .f32⟩
  | .hbm, ⟨67, _⟩ => ⟨S200x100, .f32⟩
  | .hbm, ⟨68, _⟩ => ⟨S262144x100, .f32⟩
  | .hbm, ⟨69, _⟩ => ⟨S1x100, .f32⟩
  | .hbm, ⟨70, _⟩ => ⟨S262144x100, .f32⟩
  | .hbm, ⟨71, _⟩ => ⟨S262144x100, .f32⟩
  | .hbm, ⟨72, _⟩ => ⟨S_, .f32⟩
  | .hbm, ⟨73, _⟩ => ⟨S262144x100, .f32⟩
  | .hbm, ⟨74, _⟩ => ⟨S262144x100, .f32⟩
  | .hbm, ⟨75, _⟩ => ⟨S_, .f32⟩
  | .hbm, ⟨76, _⟩ => ⟨S262144x100, .f32⟩
  | .hbm, ⟨77, _⟩ => ⟨S262144x100, .f32⟩
  | .hbm, ⟨78, _⟩ => ⟨S_, .f32⟩
  | .hbm, ⟨79, _⟩ => ⟨S262144x100, .f32⟩
  | .hbm, ⟨80, _⟩ => ⟨S262144x100, .i1⟩
  | .hbm, ⟨81, _⟩ => ⟨S262144x100, .f32⟩
  | .hbm, ⟨82, _⟩ => ⟨S262144x100, .f32⟩
  | .hbm, ⟨83, _⟩ => ⟨S262144x100, .f32⟩
  | .hbm, ⟨84, _⟩ => ⟨S_, .f32⟩
  | .hbm, ⟨85, _⟩ => ⟨S262144x100, .f32⟩
  | .hbm, ⟨86, _⟩ => ⟨S262144x100, .f32⟩
  | .hbm, ⟨87, _⟩ => ⟨S262144x100, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S262144x100, .f32⟩
  | .hbm, ⟨92, _⟩ => ⟨S262144x100, .f32⟩
  | .hbm, ⟨93, _⟩ => ⟨S_, .f32⟩
  | .hbm, ⟨94, _⟩ => ⟨S262144x100, .f32⟩
  | .hbm, ⟨95, _⟩ => ⟨S262144x100, .f32⟩
  | .hbm, ⟨96, _⟩ => ⟨S100x10, .f32⟩
  | .hbm, ⟨97, _⟩ => ⟨S262144x10, .f32⟩
  | .hbm, ⟨98, _⟩ => ⟨S1x10, .f32⟩
  | .hbm, ⟨99, _⟩ => ⟨S262144x10, .f32⟩
  | .hbm, ⟨100, _⟩ => ⟨S262144x10, .f32⟩
  | .hbm, ⟨101, _⟩ => ⟨S_, .f32⟩
  | .hbm, ⟨102, _⟩ => ⟨S262144x10, .f32⟩
  | .hbm, ⟨103, _⟩ => ⟨S262144x10, .f32⟩
  | .hbm, ⟨104, _⟩ => ⟨S_, .f32⟩
  | .hbm, ⟨105, _⟩ => ⟨S262144x10, .f32⟩
  | .hbm, ⟨106, _⟩ => ⟨S262144x10, .f32⟩
  | .hbm, ⟨107, _⟩ => ⟨S_, .f32⟩
  | .hbm, ⟨108, _⟩ => ⟨S262144x10, .f32⟩
  | .hbm, ⟨109, _⟩ => ⟨S262144x10, .i1⟩
  | .hbm, ⟨110, _⟩ => ⟨S262144x10, .f32⟩
  | .hbm, ⟨111, _⟩ => ⟨S262144x10, .f32⟩
  | .hbm, ⟨112, _⟩ => ⟨S262144x10, .f32⟩
  | .hbm, ⟨113, _⟩ => ⟨S_, .f32⟩
  | .hbm, ⟨114, _⟩ => ⟨S262144x10, .f32⟩
  | .hbm, ⟨115, _⟩ => ⟨S262144x10, .f32⟩
  | .hbm, ⟨116, _⟩ => ⟨S262144x10, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S262144x10, .f32⟩
  | .hbm, ⟨121, _⟩ => ⟨S262144x10, .f32⟩
  | .hbm, ⟨122, _⟩ => ⟨S_, .f32⟩
  | .hbm, ⟨123, _⟩ => ⟨S262144x10, .f32⟩
  | .hbm, ⟨124, _⟩ => ⟨S262144x10, .f32⟩
  | _, _ => ⟨S262144x76, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_4 : Ref sig .tc := ⟨.hbm, 43, rfl⟩
abbrev main_v19 : Ref sig .tc := ⟨.hbm, 44, rfl⟩
abbrev main_v20 : Ref sig .tc := ⟨.hbm, 45, rfl⟩
abbrev main_cst_5 : Ref sig .tc := ⟨.hbm, 46, rfl⟩
abbrev main_v21 : Ref sig .tc := ⟨.hbm, 47, rfl⟩
abbrev main_v22 : Ref sig .tc := ⟨.hbm, 48, rfl⟩
abbrev main_call2_cst : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_v23 : Ref sig .tc := ⟨.hbm, 54, rfl⟩
abbrev main_cst_6 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_cst_7 : Ref sig .tc := ⟨.hbm, 59, rfl⟩
abbrev main_cst_8 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_cst_9 : Ref sig .tc := ⟨.hbm, 72, rfl⟩
abbrev main_v33 : Ref sig .tc := ⟨.hbm, 73, rfl⟩
abbrev main_v34 : Ref sig .tc := ⟨.hbm, 74, rfl⟩
abbrev main_cst_10 : Ref sig .tc := ⟨.hbm, 75, rfl⟩
abbrev main_v35 : Ref sig .tc := ⟨.hbm, 76, rfl⟩
abbrev main_v36 : Ref sig .tc := ⟨.hbm, 77, rfl⟩
abbrev main_call4_cst : Ref sig .tc := ⟨.hbm, 78, rfl⟩
abbrev main_call4_v0 : Ref sig .tc := ⟨.hbm, 79, rfl⟩
abbrev main_call4_v1 : Ref sig .tc := ⟨.hbm, 80, rfl⟩
abbrev main_call4_v2 : Ref sig .tc := ⟨.hbm, 81, rfl⟩
abbrev main_call4_v3 : Ref sig .tc := ⟨.hbm, 82, rfl⟩
abbrev main_v37 : Ref sig .tc := ⟨.hbm, 83, rfl⟩
abbrev main_cst_11 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_cst_12 : Ref sig .tc := ⟨.hbm, 88, rfl⟩
abbrev main_cst_13 : Ref sig .tc := ⟨.hbm, 89, rfl⟩
abbrev main_call5_v0 : Ref sig .tc := ⟨.hbm, 90, rfl⟩
abbrev main_call5_v1 : Ref sig .tc := ⟨.hbm, 91, rfl⟩
abbrev main_call5_v2 : Ref sig .tc := ⟨.hbm, 92, rfl⟩
abbrev main_call5_v3 : Ref sig .tc := ⟨.hbm, 93, rfl⟩
abbrev main_call5_v4 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_cst_14 : Ref sig .tc := ⟨.hbm, 101, rfl⟩
abbrev main_v47 : Ref sig .tc := ⟨.hbm, 102, rfl⟩
abbrev main_v48 : Ref sig .tc := ⟨.hbm, 103, rfl⟩
abbrev main_cst_15 : Ref sig .tc := ⟨.hbm, 104, rfl⟩
abbrev main_v49 : Ref sig .tc := ⟨.hbm, 105, rfl⟩
abbrev main_v50 : Ref sig .tc := ⟨.hbm, 106, rfl⟩
abbrev main_call6_cst : Ref sig .tc := ⟨.hbm, 107, rfl⟩
abbrev main_call6_v0 : Ref sig .tc := ⟨.hbm, 108, rfl⟩
abbrev main_call6_v1 : Ref sig .tc := ⟨.hbm, 109, rfl⟩
abbrev main_call6_v2 : Ref sig .tc := ⟨.hbm, 110, rfl⟩
abbrev main_call6_v3 : Ref sig .tc := ⟨.hbm, 111, rfl⟩
abbrev main_v51 : Ref sig .tc := ⟨.hbm, 112, rfl⟩
abbrev main_cst_16 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_cst_17 : Ref sig .tc := ⟨.hbm, 117, rfl⟩
abbrev main_cst_18 : Ref sig .tc := ⟨.hbm, 118, rfl⟩
abbrev main_call7_v0 : Ref sig .tc := ⟨.hbm, 119, rfl⟩
abbrev main_call7_v1 : Ref sig .tc := ⟨.hbm, 120, rfl⟩
abbrev main_call7_v2 : Ref sig .tc := ⟨.hbm, 121, rfl⟩
abbrev main_call7_v3 : Ref sig .tc := ⟨.hbm, 122, rfl⟩
abbrev main_call7_v4 : Ref sig .tc := ⟨.hbm, 123, rfl⟩
abbrev main_v55 : Ref sig .tc := ⟨.hbm, 124, rfl⟩

abbrev nD : Nat := 1
abbrev τ : Topo := Topo.v7x

variable {F : FTy → Type} [FloatOps F]

class Facts₀ : Prop where
  transposes_S300x76_S76x300_1_0 : S300x76.Transposes [1, 0] S76x300
  bcast_S300_S1x300_1 : S300.BroadcastsInDim S1x300 (![1] : Fin 1 → Fin S1x300.rank)
  bcast_S1x300_S262144x300_0_1 : S1x300.BroadcastsInDim S262144x300 (![0, 1] : Fin 2 → Fin S262144x300.rank)
  bcast_S_S262144x300 : S_.BroadcastsInDim S262144x300 (![] : Fin 0 → Fin S262144x300.rank)
  transposes_S200x300_S300x200_1_0 : S200x300.Transposes [1, 0] S300x200
  bcast_S200_S1x200_1 : S200.BroadcastsInDim S1x200 (![1] : Fin 1 → Fin S1x200.rank)
  bcast_S1x200_S262144x200_0_1 : S1x200.BroadcastsInDim S262144x200 (![0, 1] : Fin 2 → Fin S262144x200.rank)
  bcast_S_S262144x200 : S_.BroadcastsInDim S262144x200 (![] : Fin 0 → Fin S262144x200.rank)
  transposes_S100x200_S200x100_1_0 : S100x200.Transposes [1, 0] S200x100
  bcast_S100_S1x100_1 : S100.BroadcastsInDim S1x100 (![1] : Fin 1 → Fin S1x100.rank)
  bcast_S1x100_S262144x100_0_1 : S1x100.BroadcastsInDim S262144x100 (![0, 1] : Fin 2 → Fin S262144x100.rank)
  bcast_S_S262144x100 : S_.BroadcastsInDim S262144x100 (![] : Fin 0 → Fin S262144x100.rank)
  transposes_S10x100_S100x10_1_0 : S10x100.Transposes [1, 0] S100x10
  bcast_S10_S1x10_1 : S10.BroadcastsInDim S1x10 (![1] : Fin 1 → Fin S1x10.rank)
  bcast_S1x10_S262144x10_0_1 : S1x10.BroadcastsInDim S262144x10 (![0, 1] : Fin 2 → Fin S262144x10.rank)
  bcast_S_S262144x10 : S_.BroadcastsInDim S262144x10 (![] : Fin 0 → Fin S262144x10.rank)
  dot_S262144x76_S76x300_S262144x300_1_0_0_1_n_n_wf : DotDims.WF S262144x76 S76x300 S262144x300 [1] [0] [0] [1] [] []
  dot_S262144x300_S300x200_S262144x200_1_0_0_1_n_n_wf : DotDims.WF S262144x300 S300x200 S262144x200 [1] [0] [0] [1] [] []
  dot_S262144x200_S200x100_S262144x100_1_0_0_1_n_n_wf : DotDims.WF S262144x200 S200x100 S262144x100 [1] [0] [0] [1] [] []
  dot_S262144x100_S100x10_S262144x10_1_0_0_1_n_n_wf : DotDims.WF S262144x100 S100x10 S262144x10 [1] [0] [0] [1] [] []

variable [Facts₀]

def dot_S262144x76_S76x300_S262144x300_1_0_0_1_n_n : DotDims S262144x76 S76x300 S262144x300 where
  lhsContracting := [1]
  rhsContracting := [0]
  lhsNonContracting := [0]
  rhsNonContracting := [1]
  lhsBatch := []
  rhsBatch := []
  wf := dot_S262144x76_S76x300_S262144x300_1_0_0_1_n_n_wf
def dot_S262144x300_S300x200_S262144x200_1_0_0_1_n_n : DotDims S262144x300 S300x200 S262144x200 where
  lhsContracting := [1]
  rhsContracting := [0]
  lhsNonContracting := [0]
  rhsNonContracting := [1]
  lhsBatch := []
  rhsBatch := []
  wf := dot_S262144x300_S300x200_S262144x200_1_0_0_1_n_n_wf
def dot_S262144x200_S200x100_S262144x100_1_0_0_1_n_n : DotDims S262144x200 S200x100 S262144x100 where
  lhsContracting := [1]
  rhsContracting := [0]
  lhsNonContracting := [0]
  rhsNonContracting := [1]
  lhsBatch := []
  rhsBatch := []
  wf := dot_S262144x200_S200x100_S262144x100_1_0_0_1_n_n_wf
def dot_S262144x100_S100x10_S262144x10_1_0_0_1_n_n : DotDims S262144x100 S100x10 S262144x10 where
  lhsContracting := [1]
  rhsContracting := [0]
  lhsNonContracting := [0]
  rhsNonContracting := [1]
  lhsBatch := []
  rhsBatch := []
  wf := dot_S262144x100_S100x10_S262144x10_1_0_0_1_n_n_wf

class Facts : Prop extends Facts₀ where

variable [Facts]
-- ==== Proof.LibPlainDot.lean ====
/-
  A PLAIN MATRIX PRODUCT READ AT AN INDEX (general lemmas; they mention no program).

  Take dimension numbers of a product [M, K] × [K, N] → [M, N] that contract the left operand's axis 1 with the
  right operand's axis 0, keep the left axis 0 and the right axis 1, and have no batch axes. The contraction index
  set then has one axis of extent K, so it is Fin K; the left operand's index at result index (i, j) and contraction
  position k is (i, k) and the right operand's is (k, j). Hence on the extended reals both the accumulate-into-zero
  product of the vector unit and the host's dot product are, at (i, j), the finite sum over k of l (i, k) · r (k, j).
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat} (d : DotDims (⟨2, ![M, K]⟩ : Shape) (⟨2, ![K, N]⟩ : Shape) (⟨2, ![M, N]⟩ : Shape))

/-- The dimension numbers are those of a plain product: contract left axis 1 with right axis 0, keep left axis 0
    and right axis 1, no batch axes. -/
structure Plain : Prop where
  lc : d.lhsContracting = [1]
  rc : d.rhsContracting = [0]
  ln : d.lhsNonContracting = [0]
  rn : d.rhsNonContracting = [1]
  lb : d.lhsBatch = []
  rb : d.rhsBatch = []

variable {d}

theorem contr_rank (h : Plain d) : d.contr.rank = 1 := by rw [d.rank_contr, h.lc]; rfl

theorem contr_size (h : Plain d) : d.contr.size ⟨0, by rw [contr_rank h]; exact Nat.one_pos⟩ = K := by
  have hp : 0 < d.lhsContracting.length := by rw [h.lc]; exact Nat.one_pos
  rw [d.size_contr 0 hp]
  have : d.lhsContracting[0] = (1 : Fin 2) := by simp [h.lc]
  rw [this]; rfl

/-- The left operand's row is the result's row. -/
theorem lhs_row (h : Plain d) (j : (⟨2, ![M, N]⟩ : Shape).Idx) (q : d.contr.Idx) : (d.lhsIdx j q 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 0 _ Nat.zero_lt_two (by simp [h.lb, h.ln])

/-- The left operand's column is the contraction position. -/
theorem lhs_col (h : Plain d) (j : (⟨2, ![M, N]⟩ : Shape).Idx) (q : d.contr.Idx) :
    (d.lhsIdx j q 1).val = (q ⟨0, by rw [contr_rank h]; exact Nat.one_pos⟩).val :=
  d.lhsIdx_val_of_single h.lc j q

/-- The right operand's row is the contraction position. -/
theorem rhs_row (h : Plain d) (j : (⟨2, ![M, N]⟩ : Shape).Idx) (q : d.contr.Idx) :
    (d.rhsIdx j q 0).val = (q ⟨0, by rw [contr_rank h]; exact Nat.one_pos⟩).val :=
  d.rhsIdx_val_of_single h.rc j q

/-- The right operand's column is the result's column. -/
theorem rhs_col (h : Plain d) (j : (⟨2, ![M, N]⟩ : Shape).Idx) (q : d.contr.Idx) : (d.rhsIdx j q 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  have key : ∀ (p p' : Nat) (hp : p < (⟨2, ![M, N]⟩ : Shape).rank) (hp' : p' < (⟨2, ![M, N]⟩ : Shape).rank), p = p' → (j ⟨p, hp⟩).val = (j ⟨p', hp'⟩).val :=
    fun p p' hp hp' e => by subst e; rfl
  exact key _ 1 _ Nat.one_lt_two (by simp [h.lb, h.ln, h.rn])

/-- The contraction's sum, re-indexed by the one contracted coordinate. -/
theorem sum_eq (h : Plain d) (l : (⟨2, ![M, K]⟩ : Shape).Idx → EReal) (r : (⟨2, ![K, N]⟩ : Shape).Idx → EReal)
    (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K (contr_rank h) (contr_size h)).symm]
  refine Finset.sum_congr rfl fun k _ => ?_
  have hk := contrEquiv1_symm_val d K (contr_rank h) (contr_size h) k
  have el : d.lhsIdx j ((contrEquiv1 d K (contr_rank h) (contr_size h)).symm k) = ix2 (j 0) k := funext fun a => Fin.ext (by
    match a with
    | ⟨0, _⟩ => exact lhs_row h _ _
    | ⟨1, _⟩ => exact (lhs_col h _ _).trans hk)
  have er : d.rhsIdx j ((contrEquiv1 d K (contr_rank h) (contr_size h)).symm k) = ix2 k (j 1) := funext fun a => Fin.ext (by
    match a with
    | ⟨0, _⟩ => exact (rhs_row h _ _).trans hk
    | ⟨1, _⟩ => exact rhs_col h _ _)
  exact congrArg₂ (· * ·) (congrArg l el) (congrArg r er)

/-- The vector unit's product into the zero accumulator, at an index. -/
theorem matmul_zero_apply (h : Plain d) {φ₁ φ₂ : FTy} (prec : Option ContractPrecision)
    (l : FVec Ideal (⟨2, ![M, K]⟩ : Shape) φ₁) (r : FVec Ideal (⟨2, ![K, N]⟩ : Shape) φ₂) (j : (⟨2, ![M, N]⟩ : Shape).Idx) :
    FloatOps.matmul d prec l r (constant (⟨2, ![M, N]⟩ : Shape) .f32 0x00000000#32) j = ∑ k : Fin K, l (ix2 (j 0) k) * r (ix2 k (j 1)) :=
  (Ideal.matmul_constant_zero_apply d prec l r j).trans (sum_eq h l r j)

/-- The host's dot product, at an index. -/
theorem dotGeneral_apply (h : Plain d) {φ₁ φ₂ : FTy} (prec : Option ContractPrecision) (sched : HostSchedule)
    (l : FVec Ideal (⟨2, ![M, K]⟩ : Shape) φ₁) (r : FVec Ideal (⟨2, ![K, N]⟩ : Shape) φ₂) (j : (⟨2, ![M, N]⟩ : Shape).Idx) :
    FloatOps.dotGeneral d prec sched l r j = ∑ k : Fin K, l (ix2 (j 0) k) * r (ix2 k (j 1)) :=
  (Ideal.dotGeneral_apply d prec sched l r j).trans (sum_eq h l r j)

end Cert.Lib.PlainDot

end
-- ==== Proof.Layer.lean ====
/-
  ONE LAYER OF THE NETWORK, READ AT AN INDEX (no program is mentioned here).

  A layer takes a matrix x of M rows and K columns, a weight matrix W of N rows and K columns and a bias of N
  entries, and produces the matrix of M rows and N columns whose entry (p, j) is

      q ( sum over k < K of x (p, k) * W (j, k)  +  bias j ),

  where q is the requantisation of one value z: with u = z * m + 16384, take u rounded toward zero (the ceiling of
  u when u < 0, its floor otherwise), multiply by 2^-15, take the floor, and clamp the result to [0, 255].

  The vector unit writes the layer as a matrix product with the transposed weights into a zero accumulator, the bias
  row [1, N] broadcast down the rows, and the requantisation with scalars splatted; the host writes it as a dot
  product with the transposed weights, the bias vector broadcast in two steps, and the same requantisation with
  rank-0 constants broadcast. Read at (p, j) on the extended reals, both are the displayed expression: entry (p, j)
  depends on row p of x only, which is what lets a block of rows be computed apart from the others.
-/
import Idealize.ShloMosaic.PureOps.Ideal.Laws
import Idealize.ShloMosaic.Lib.ValueIdx
import Idealize.ShloMosaic.Lib.ValueLayout
import Idealize.ShloMosaic.Lib.Pipeline.Value
import proofs.«108363_j15049565405381_1_alg».proof.Proof.LibPlainDot

noncomputable section

open scoped BigOperators

namespace Cert.Mlp

open Idealize.ShloMosaic Idealize.ShloMosaic.ValueIdx

local notation "S2[" a ", " b "]" => (⟨2, ![a, b]⟩ : Shape)
local notation "S1[" a "]" => (⟨1, ![a]⟩ : Shape)
local notation "S0[]" => (⟨0, ![]⟩ : Shape)

/-! ## The requantisation of one value -/

/-- q at scale m (given by its binary32 word): u = z * m + 16384, rounded toward zero, times 2^-15, floored, clamped
    to [0, 255]. -/
def rq (mb : BitVec 32) (z : EReal) : EReal :=
  let u : Ideal .f32 := FloatOps.addf (FloatOps.mulf (z : Ideal .f32) (FloatOps.ofBits .f32 mb)) (FloatOps.ofBits .f32 0x46800000#32)
  FloatOps.minimumf (FloatOps.ofBits (F := Ideal) .f32 0x437F0000#32)
    (FloatOps.maximumf (FloatOps.ofBits (F := Ideal) .f32 0x00000000#32)
      (FloatOps.floor (FloatOps.mulf
        (Scalar.select (FloatOps.cmpf .olt u (FloatOps.ofBits (F := Ideal) .f32 0x00000000#32)) (FloatOps.ceil u) (FloatOps.floor u))
        (FloatOps.ofBits (F := Ideal) .f32 0x38000000#32))))

section Vectors

variable {F : FTy → Type} [FloatOps F]

/-- The requantisation of a whole array as the vector unit writes it: every scalar splatted to the array's shape. -/
def tailK (S : Shape) (mb : BitVec 32) (z : FVec F S .f32) : FVec F S .f32 :=
  let u : FVec F S .f32 := addf (mulf z (broadcast S (Scalar.ofBits .f32 mb))) (broadcast S (Scalar.ofBits .f32 0x46800000#32))
  minimumf (broadcast S (Scalar.ofBits .f32 0x437F0000#32))
    (maximumf (broadcast S (Scalar.ofBits .f32 0x00000000#32))
      (floor (mulf (select (cmpf .olt u (broadcast S (Scalar.ofBits .f32 0x00000000#32))) (ceil u) (floor u))
        (broadcast S (Scalar.ofBits .f32 0x38000000#32)))))

/-- The requantisation of a whole array as the host writes it: every constant a rank-0 array broadcast to the shape,
    the clamp's two bounds passed through a conversion to their own type. -/
def tailH (S : Shape) (hs : S0[].BroadcastsInDim S (![] : Fin 0 → Fin S.rank)) (mb : BitVec 32) (z : FVec F S .f32) : FVec F S .f32 :=
  let u : FVec F S .f32 := addf (mulf z (broadcastInDim S ![] hs (constant S0[] .f32 mb))) (broadcastInDim S ![] hs (constant S0[] .f32 0x46800000#32))
  minimumf (broadcastInDim S ![] hs (id (constant S0[] .f32 0x437F0000#32)))
    (maximumf (broadcastInDim S ![] hs (id (constant S0[] .f32 0x00000000#32)))
      (Host.floor (mulf (select (cmpf .olt u (broadcastInDim S ![] hs (constant S0[] .f32 0x00000000#32))) (Host.ceil u) (Host.floor u))
        (broadcastInDim S ![] hs (constant S0[] .f32 0x38000000#32)))))

variable {M K N : Nat}

/-- x · Wᵀ + bias as the vector unit writes it: the weights transposed, the product into a zero accumulator, the
    bias row cast to its own shape and broadcast down the rows. -/
def preK (d : DotDims S2[M, K] S2[K, N] S2[M, N]) (hT : S2[N, K].Transposes [1, 0] S2[K, N])
    (hc : S2[1, N].ShapeCasts S2[1, N]) (hb : S2[1, N].Broadcasts S2[M, N])
    (x : FVec F S2[M, K] .f32) (W : FVec F S2[N, K] .f32) (b : FVec F S2[1, N] .f32) : FVec F S2[M, N] .f32 :=
  addf (matmul d (some .fp32) x (transpose S2[K, N] [1, 0] W hT) (constant S2[M, N] .f32 0x00000000#32))
    (broadcastTo S2[M, N] (shapeCast S2[1, N] b hc) hb)

/-- x · Wᵀ + bias as the host writes it: the weights transposed, the dot product, the bias vector made a row and the
    row broadcast down the rows. -/
def preH (d : DotDims S2[M, K] S2[K, N] S2[M, N]) (hT : S2[N, K].Transposes [1, 0] S2[K, N])
    (hb1 : S1[N].BroadcastsInDim S2[1, N] (![1] : Fin 1 → Fin 2)) (hb2 : S2[1, N].BroadcastsInDim S2[M, N] (![0, 1] : Fin 2 → Fin 2))
    (x : FVec F S2[M, K] .f32) (W : FVec F S2[N, K] .f32) (b : FVec F S1[N] .f32) : FVec F S2[M, N] .f32 :=
  addf (Host.dotGeneral d none x (transpose S2[K, N] [1, 0] W hT))
    (broadcastInDim S2[M, N] ![0, 1] hb2 (broadcastInDim S2[1, N] ![1] hb1 b))

/-- A whole layer on the vector unit. -/
def layerK (mb : BitVec 32) (d : DotDims S2[M, K] S2[K, N] S2[M, N]) (hT : S2[N, K].Transposes [1, 0] S2[K, N])
    (hc : S2[1, N].ShapeCasts S2[1, N]) (hb : S2[1, N].Broadcasts S2[M, N])
    (x : FVec F S2[M, K] .f32) (W : FVec F S2[N, K] .f32) (b : FVec F S2[1, N] .f32) : FVec F S2[M, N] .f32 :=
  tailK S2[M, N] mb (preK d hT hc hb x W b)

/-- A whole layer on the host. -/
def layerH (mb : BitVec 32) (d : DotDims S2[M, K] S2[K, N] S2[M, N]) (hT : S2[N, K].Transposes [1, 0] S2[K, N])
    (hb1 : S1[N].BroadcastsInDim S2[1, N] (![1] : Fin 1 → Fin 2)) (hb2 : S2[1, N].BroadcastsInDim S2[M, N] (![0, 1] : Fin 2 → Fin 2))
    (hs : S0[].BroadcastsInDim S2[M, N] (![] : Fin 0 → Fin 2))
    (x : FVec F S2[M, K] .f32) (W : FVec F S2[N, K] .f32) (b : FVec F S1[N] .f32) : FVec F S2[M, N] .f32 :=
  tailH S2[M, N] hs mb (preH d hT hb1 hb2 x W b)

end Vectors

/-! ## Read at an index, on the extended reals -/

/-- The vector unit's requantisation is q entry by entry. -/
theorem tailK_apply (S : Shape) (mb : BitVec 32) (z : FVec Ideal S .f32) (i : S.Idx) :
    tailK S mb z i = rq mb (z i) := rfl

/-- The host's requantisation is q entry by entry: its floor and ceiling are the vector unit's on the extended reals,
    and a broadcast rank-0 constant is that constant everywhere. -/
theorem tailH_apply (S : Shape) (hs : S0[].BroadcastsInDim S (![] : Fin 0 → Fin S.rank)) (mb : BitVec 32)
    (z : FVec Ideal S .f32) (i : S.Idx) :
    tailH S hs mb z i = rq mb (z i) := rfl

/-- One layer on one row: from the row's K entries to its N entries. -/
def rowLayer {K N : Nat} (mb : BitVec 32) (W : S2[N, K].Idx → EReal) (b : Fin N → EReal) (xr : Fin K → EReal) : Fin N → EReal :=
  fun j => rq mb ((∑ k : Fin K, xr k * W (ix2 j k)) + b j)

variable {M K N : Nat}

/-- A bias vector made a row reads its entry j at (0, j). -/
theorem bias_row_apply (hb1 : S1[N].BroadcastsInDim S2[1, N] (![1] : Fin 1 → Fin 2)) (b : S1[N].Idx → EReal) (j : Fin N) :
    broadcastInDim S2[1, N] ![1] hb1 b (ix2 (0 : Fin 1) j) = b (ix1 j) := by
  refine broadcastInDim_apply ![1] hb1 b (ix2 (0 : Fin 1) j) (ix1 j) fun a => ?_
  have ha : a = 0 := Subsingleton.elim _ _
  subst ha
  have hj : j.val < N := j.isLt
  show j.val = if N = 1 then 0 else j.val
  by_cases h1 : N = 1
  · rw [if_pos h1]; omega
  · rw [if_neg h1]

/-- A row broadcast down M rows reads, at (p, j), the row at (0, j). -/
theorem row_down_apply (hb2 : S2[1, N].BroadcastsInDim S2[M, N] (![0, 1] : Fin 2 → Fin 2)) (v : S2[1, N].Idx → EReal)
    (p : Fin M) (j : Fin N) :
    broadcastInDim S2[M, N] ![0, 1] hb2 v (ix2 p j) = v (ix2 (0 : Fin 1) j) := by
  refine broadcastInDim_apply ![0, 1] hb2 v (ix2 p j) (ix2 (0 : Fin 1) j) fun a => ?_
  match a with
  | ⟨0, _⟩ => rfl
  | ⟨1, _⟩ =>
    have hj : j.val < N := j.isLt
    show j.val = if N = 1 then 0 else j.val
    by_cases h1 : N = 1
    · rw [if_pos h1]; omega
    · rw [if_neg h1]

/-- The vector unit's x · Wᵀ + bias at (p, j). -/
theorem preK_apply (d : DotDims S2[M, K] S2[K, N] S2[M, N]) (hd : Cert.Lib.PlainDot.Plain d)
    (hT : S2[N, K].Transposes [1, 0] S2[K, N]) (hc : S2[1, N].ShapeCasts S2[1, N]) (hb : S2[1, N].Broadcasts S2[M, N])
    (x : FVec Ideal S2[M, K] .f32) (W : FVec Ideal S2[N, K] .f32) (b : FVec Ideal S2[1, N] .f32) (p : Fin M) (j : Fin N) :
    preK d hT hc hb x W b (ix2 p j) = (∑ k : Fin K, x (ix2 p k) * W (ix2 j k)) + b (ix2 (0 : Fin 1) j) := by
  show FloatOps.matmul d (some .fp32) x (transpose S2[K, N] [1, 0] W hT) (constant S2[M, N] .f32 0x00000000#32) (ix2 p j)
      + broadcastTo S2[M, N] (shapeCast S2[1, N] b hc) hb (ix2 p j) = _
  rw [Cert.Lib.PlainDot.matmul_zero_apply hd, broadcastTo_1b_ab_apply, shapeCast_self]
  refine congrArg (· + b (ix2 (0 : Fin 1) j)) (Finset.sum_congr rfl fun k _ => ?_)
  show x (ix2 p k) * transpose S2[K, N] [1, 0] W hT (ix2 k j) = _
  rw [transpose_ix2_apply]

/-- The host's x · Wᵀ + bias at (p, j). -/
theorem preH_apply (d : DotDims S2[M, K] S2[K, N] S2[M, N]) (hd : Cert.Lib.PlainDot.Plain d)
    (hT : S2[N, K].Transposes [1, 0] S2[K, N])
    (hb1 : S1[N].BroadcastsInDim S2[1, N] (![1] : Fin 1 → Fin 2)) (hb2 : S2[1, N].BroadcastsInDim S2[M, N] (![0, 1] : Fin 2 → Fin 2))
    (x : FVec Ideal S2[M, K] .f32) (W : FVec Ideal S2[N, K] .f32) (b : FVec Ideal S1[N] .f32) (p : Fin M) (j : Fin N) :
    preH d hT hb1 hb2 x W b (ix2 p j) = (∑ k : Fin K, x (ix2 p k) * W (ix2 j k)) + b (ix1 j) := by
  show FloatOps.dotGeneral d none .single x (transpose S2[K, N] [1, 0] W hT) (ix2 p j)
      + broadcastInDim S2[M, N] ![0, 1] hb2 (broadcastInDim S2[1, N] ![1] hb1 b) (ix2 p j) = _
  rw [Cert.Lib.PlainDot.dotGeneral_apply hd, row_down_apply, bias_row_apply]
  refine congrArg (· + b (ix1 j)) (Finset.sum_congr rfl fun k _ => ?_)
  show x (ix2 p k) * transpose S2[K, N] [1, 0] W hT (ix2 k j) = _
  rw [transpose_ix2_apply]

/-- A layer on the vector unit, at (p, j): the row layer of row p of x, the bias read off its row. -/
theorem layerK_apply (mb : BitVec 32) (d : DotDims S2[M, K] S2[K, N] S2[M, N]) (hd : Cert.Lib.PlainDot.Plain d)
    (hT : S2[N, K].Transposes [1, 0] S2[K, N]) (hc : S2[1, N].ShapeCasts S2[1, N]) (hb : S2[1, N].Broadcasts S2[M, N])
    (x : FVec Ideal S2[M, K] .f32) (W : FVec Ideal S2[N, K] .f32) (b : FVec Ideal S2[1, N] .f32) (p : Fin M) (j : Fin N) :
    layerK mb d hT hc hb x W b (ix2 p j)
      = rowLayer mb W (fun j => b (ix2 (0 : Fin 1) j)) (fun k => x (ix2 p k)) j := by
  show tailK S2[M, N] mb (preK d hT hc hb x W b) (ix2 p j) = _
  rw [tailK_apply, preK_apply d hd]
  rfl

/-- A layer on the host, at (p, j): the row layer of row p of x. -/
theorem layerH_apply (mb : BitVec 32) (d : DotDims S2[M, K] S2[K, N] S2[M, N]) (hd : Cert.Lib.PlainDot.Plain d)
    (hT : S2[N, K].Transposes [1, 0] S2[K, N])
    (hb1 : S1[N].BroadcastsInDim S2[1, N] (![1] : Fin 1 → Fin 2)) (hb2 : S2[1, N].BroadcastsInDim S2[M, N] (![0, 1] : Fin 2 → Fin 2))
    (hs : S0[].BroadcastsInDim S2[M, N] (![] : Fin 0 → Fin 2))
    (x : FVec Ideal S2[M, K] .f32) (W : FVec Ideal S2[N, K] .f32) (b : FVec Ideal S1[N] .f32) (p : Fin M) (j : Fin N) :
    layerH mb d hT hb1 hb2 hs x W b (ix2 p j)
      = rowLayer mb W (fun j => b (ix1 j)) (fun k => x (ix2 p k)) j := by
  show tailH S2[M, N] hs mb (preH d hT hb1 hb2 x W b) (ix2 p j) = _
  rw [tailH_apply, preH_apply d hd]
  rfl

end Cert.Mlp

end
-- ==== Proof.Net.lean ====
/-
  THE NETWORK ON ONE ROW, AND THE WHOLE RESULT AS ONE FUNCTION OF THE ARGUMENTS.

  The network is four layers, 76 → 300 → 200 → 100 → 10, at the scales 1500, 1400, 1300, 1200. Each layer maps a row
  to a row (Layer.lean), so the network maps row p of the input to row p of the result: entry (p, j) of the result
  is entry j of the four row layers applied in turn to row p of the input.
-/
import proofs.«108363_j15049565405381_1_alg».proof.Proof.Layer

noncomputable section

namespace Cert.Mlp

open Idealize.ShloMosaic Idealize.ShloMosaic.ValueIdx

local notation "S2[" a ", " b "]" => (⟨2, ![a, b]⟩ : Shape)
local notation "S1[" a "]" => (⟨1, ![a]⟩ : Shape)

/-- The four row layers in turn: from a row of 76 entries to a row of 10. -/
def mlpRow (W0 : S2[300, 76].Idx → EReal) (b0 : Fin 300 → EReal) (W1 : S2[200, 300].Idx → EReal) (b1 : Fin 200 → EReal)
    (W2 : S2[100, 200].Idx → EReal) (b2 : Fin 100 → EReal) (W3 : S2[10, 100].Idx → EReal) (b3 : Fin 10 → EReal)
    (xr : Fin 76 → EReal) : Fin 10 → EReal :=
  rowLayer 0x44960000#32 W3 b3 (rowLayer 0x44A28000#32 W2 b2 (rowLayer 0x44AF0000#32 W1 b1 (rowLayer 0x44BB8000#32 W0 b0 xr)))

/-- The row network depends on its arguments only through their values. -/
theorem mlpRow_congr {W0 W0' : S2[300, 76].Idx → EReal} {b0 b0' : Fin 300 → EReal} {W1 W1' : S2[200, 300].Idx → EReal}
    {b1 b1' : Fin 200 → EReal} {W2 W2' : S2[100, 200].Idx → EReal} {b2 b2' : Fin 100 → EReal}
    {W3 W3' : S2[10, 100].Idx → EReal} {b3 b3' : Fin 10 → EReal} {xr xr' : Fin 76 → EReal}
    (e0 : W0 = W0') (f0 : b0 = b0') (e1 : W1 = W1') (f1 : b1 = b1') (e2 : W2 = W2') (f2 : b2 = b2')
    (e3 : W3 = W3') (f3 : b3 = b3') (ex : xr = xr') (j : Fin 10) :
    mlpRow W0 b0 W1 b1 W2 b2 W3 b3 xr j = mlpRow W0' b0' W1' b1' W2' b2' W3' b3' xr' j := by
  subst e0 f0 e1 f1 e2 f2 e3 f3 ex; rfl

/-- The result array as one function of the nine argument arrays: entry i is entry (i 1) of the row network on row
    (i 0) of the input. -/
def G (X : S2[262144, 76].Idx → EReal) (W0 : S2[300, 76].Idx → EReal) (b0 : S1[300].Idx → EReal)
    (W1 : S2[200, 300].Idx → EReal) (b1 : S1[200].Idx → EReal) (W2 : S2[100, 200].Idx → EReal) (b2 : S1[100].Idx → EReal)
    (W3 : S2[10, 100].Idx → EReal) (b3 : S1[10].Idx → EReal) : S2[262144, 10].Idx → EReal :=
  fun i => mlpRow W0 (fun j => b0 (ix1 j)) W1 (fun j => b1 (ix1 j)) W2 (fun j => b2 (ix1 j)) W3 (fun j => b3 (ix1 j))
    (fun k => X (ix2 (⟨(i 0).val, idx2_lt0 i⟩ : Fin 262144) k)) (⟨(i 1).val, idx2_lt1 i⟩ : Fin 10)

theorem G_apply (X : S2[262144, 76].Idx → EReal) (W0 : S2[300, 76].Idx → EReal) (b0 : S1[300].Idx → EReal)
    (W1 : S2[200, 300].Idx → EReal) (b1 : S1[200].Idx → EReal) (W2 : S2[100, 200].Idx → EReal) (b2 : S1[100].Idx → EReal)
    (W3 : S2[10, 100].Idx → EReal) (b3 : S1[10].Idx → EReal) (p : Fin 262144) (j : Fin 10) :
    G X W0 b0 W1 b1 W2 b2 W3 b3 (ix2 p j)
      = mlpRow W0 (fun j => b0 (ix1 j)) W1 (fun j => b1 (ix1 j)) W2 (fun j => b2 (ix1 j)) W3 (fun j => b3 (ix1 j))
          (fun k => X (ix2 p k)) j := rfl

end Cert.Mlp

end
-- ==== Proof.KernelValue.lean ====
/-
  WHAT THE KERNEL COMPUTES.

  The kernel runs on 128 grid points; point t loads rows 2048·t … 2048·t + 2047 of the input, the four weight
  matrices whole and the four bias rows whole, and stores a [2048, 10] block that is written back as rows
  2048·t … 2048·t + 2047 of the result. The block it stores is the four layers of the vector unit (Layer.lean) applied
  to the loaded blocks, and each layer maps row p of its input to row p of its output; so entry (p, j) of the stored
  block is the row network (Net.lean) on row 2048·t + p of the input, that is entry (2048·t + p, j) of G of the nine
  arguments. The 128 blocks cover the result array, which therefore ends holding G.
-/
import proofs.«108363_j15049565405381_1_alg».proof.Proof.Gen.KernelIdeal.Value
import proofs.«108363_j15049565405381_1_alg».proof.Proof.Net
import Idealize.ShloMosaic.Lib.StableHlo.Run
import Idealize.ShloMosaic.Lib.ValueLayout

set_option maxRecDepth 16384

noncomputable section

namespace Cert.KernelIdeal.NetValue

open Cert.KernelIdeal Cert.KernelIdeal.Gen Idealize.ShloMosaic Idealize.ShloMosaic.TcCoe Idealize.SL.Sem
  Idealize.ShloMosaic.ValueIdx Idealize.ShloMosaic.StableHlo Cert.Mlp
open Idealize.ShloMosaic.Pipeline (Dat)

/-! ## The stored block is the four layers of the loaded blocks -/

section AnyValues

variable {F : FTy → Type} [FloatOps F]

/-- The four layers of the vector unit composed. -/
def netK (x0 : FVec F S2048x76 .f32) (x1 : FVec F S300x76 .f32) (x2 : FVec F S1x300 .f32) (x3 : FVec F S200x300 .f32)
    (x4 : FVec F S1x200 .f32) (x5 : FVec F S100x200 .f32) (x6 : FVec F S1x100 .f32) (x7 : FVec F S10x100 .f32)
    (x8 : FVec F S1x10 .f32) : FVec F S2048x10 .f32 :=
  layerK 0x44960000#32 dot_S2048x100_S100x10_S2048x10_1_0_0_1_n_n transposes_S10x100_p1_0_S100x10 shapeCasts_S1x10_S1x10
      broadcasts_S1x10_S2048x10
    (layerK 0x44A28000#32 dot_S2048x200_S200x100_S2048x100_1_0_0_1_n_n transposes_S100x200_p1_0_S200x100 shapeCasts_S1x100_S1x100
        broadcasts_S1x100_S2048x100
      (layerK 0x44AF0000#32 dot_S2048x300_S300x200_S2048x200_1_0_0_1_n_n transposes_S200x300_p1_0_S300x200 shapeCasts_S1x200_S1x200
          broadcasts_S1x200_S2048x200
        (layerK 0x44BB8000#32 dot_S2048x76_S76x300_S2048x300_1_0_0_1_n_n transposes_S300x76_p1_0_S76x300 shapeCasts_S1x300_S1x300
            broadcasts_S1x300_S2048x300 x0 x1 x2)
        x3 x4)
      x5 x6)
    x7 x8

theorem hz : (![0, 0] : Fin 2 → Nat) = fun _ => 0 := funext fun a => by fin_cases a <;> rfl

/-- The one store's payload, over whole loads, is the four layers. -/
theorem out_eq (x0 : Vec F S2048x76 .f32) (x1 : Vec F S300x76 .f32) (x2 : Vec F S1x300 .f32) (x3 : Vec F S200x300 .f32)
    (x4 : Vec F S1x200 .f32) (x5 : Vec F S100x200 .f32) (x6 : Vec F S1x100 .f32) (x7 : Vec F S10x100 .f32)
    (x8 : Vec F S1x10 .f32) :
    out0_9 x0 x1 x2 x3 x4 x5 x6 x7 x8 = netK x0 x1 x2 x3 x4 x5 x6 x7 x8 := by
  unfold out0_9
  rw [View.canon_unit_zero hz]
  simp only [View.ld_unit_zero (S := S2048x76) hz, View.ld_unit_zero (S := S300x76) hz, View.ld_unit_zero (S := S1x300) hz,
    View.ld_unit_zero (S := S200x300) hz, View.ld_unit_zero (S := S1x200) hz, View.ld_unit_zero (S := S100x200) hz,
    View.ld_unit_zero (S := S1x100) hz, View.ld_unit_zero (S := S10x100) hz, View.ld_unit_zero (S := S1x10) hz]
  rfl

end AnyValues

/-! ## On the extended reals: the block at an index -/

theorem plain0 : Cert.Lib.PlainDot.Plain dot_S2048x76_S76x300_S2048x300_1_0_0_1_n_n := ⟨rfl, rfl, rfl, rfl, rfl, rfl⟩
theorem plain1 : Cert.Lib.PlainDot.Plain dot_S2048x300_S300x200_S2048x200_1_0_0_1_n_n := ⟨rfl, rfl, rfl, rfl, rfl, rfl⟩
theorem plain2 : Cert.Lib.PlainDot.Plain dot_S2048x200_S200x100_S2048x100_1_0_0_1_n_n := ⟨rfl, rfl, rfl, rfl, rfl, rfl⟩
theorem plain3 : Cert.Lib.PlainDot.Plain dot_S2048x100_S100x10_S2048x10_1_0_0_1_n_n := ⟨rfl, rfl, rfl, rfl, rfl, rfl⟩

/-- Entry (p, j) of the four layers is the row network on row p of the first block, the biases read off their rows. -/
theorem netK_apply (x0 : FVec Ideal S2048x76 .f32) (x1 : FVec Ideal S300x76 .f32) (x2 : FVec Ideal S1x300 .f32)
    (x3 : FVec Ideal S200x300 .f32) (x4 : FVec Ideal S1x200 .f32) (x5 : FVec Ideal S100x200 .f32) (x6 : FVec Ideal S1x100 .f32)
    (x7 : FVec Ideal S10x100 .f32) (x8 : FVec Ideal S1x10 .f32) (p : Fin 2048) (j : Fin 10) :
    netK x0 x1 x2 x3 x4 x5 x6 x7 x8 (ix2 p j)
      = mlpRow x1 (fun j => x2 (ix2 (0 : Fin 1) j)) x3 (fun j => x4 (ix2 (0 : Fin 1) j)) x5 (fun j => x6 (ix2 (0 : Fin 1) j))
          x7 (fun j => x8 (ix2 (0 : Fin 1) j)) (fun k => x0 (ix2 p k)) j := by
  unfold netK
  rw [layerK_apply _ _ plain3]
  simp only [layerK_apply _ _ plain2, layerK_apply _ _ plain1, layerK_apply _ _ plain0]
  rfl

/-! ## The blocks read off the arrays -/

variable (m : (ℓ : Loc nD τ sig) → Buf (Elt Ideal) ℓ) (ρ : Dev nD → PrngReg)

/-- The printed index maps, decided over the 128 grid points: the input's block row and the result's are the point;
    every other block index is zero. -/
theorem idx0 : ∀ t : Fin cfg0.N, win0_0.index t (0 : Fin 2) = t.val ∧ win0_0.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)

/-- Row p of point t's block is row 2048·t + p of the array. -/
def row (t : Fin cfg0.N) (p : Fin 2048) : Fin 262144 :=
  ⟨t.val * 2048 + p.val, by have hN : cfg0.N = 128 := N_0; have := t.isLt; have := p.isLt; omega⟩

/-- The input's block at point t holds rows 2048·t … of the input as launched. -/
theorem blk0_apply (c : Dev nD) (t : Fin cfg0.N) (p : Fin 2048) (k : Fin 76) :
    iblk m c 0 t (ix2 p k) = m ((c : Thread nD τ).loc main_arg0) (ix2 (row t p) k) := by
  show V m c main_arg0 (((cfg0.win 0).blk t).view.emb (ix2 p k)) = _
  rw [V_main_arg0]
  refine congrArg _ (funext fun a => Fin.ext ?_)
  obtain ⟨e0, e1⟩ := idx0 t
  match a with
  | ⟨0, _⟩ => show win0_0.index t (0 : Fin 2) * 2048 + 1 * p.val = t.val * 2048 + p.val; omega
  | ⟨1, _⟩ => show win0_0.index t (1 : Fin 2) * 76 + 1 * k.val = k.val; omega

/-- Each weight matrix's block is the matrix as launched. -/
theorem blk1_eq (c : Dev nD) (t : Fin cfg0.N) :
    (iblk m c 1 t : S300x76.Idx → EReal) = m ((c : Thread nD τ).loc main_arg1) := by
  funext y
  show V m c main_arg1 (((cfg0.win 1).blk t).view.emb y) = _
  rw [V_main_arg1]
  refine congrArg _ (funext fun a => Fin.ext ?_)
  obtain ⟨e0, e1⟩ := idx1 t
  match a with
  | ⟨0, _⟩ => show win0_1.index t (0 : Fin 2) * 300 + 1 * (y 0).val = (y 0).val; omega
  | ⟨1, _⟩ => show win0_1.index t (1 : Fin 2) * 76 + 1 * (y 1).val = (y 1).val; omega

theorem blk3_eq (c : Dev nD) (t : Fin cfg0.N) :
    (iblk m c 3 t : S200x300.Idx → EReal) = m ((c : Thread nD τ).loc main_arg3) := by
  funext y
  show V m c main_arg3 (((cfg0.win 3).blk t).view.emb y) = _
  rw [V_main_arg3]
  refine congrArg _ (funext fun a => Fin.ext ?_)
  obtain ⟨e0, e1⟩ := idx3 t
  match a with
  | ⟨0, _⟩ => show win0_3.index t (0 : Fin 2) * 200 + 1 * (y 0).val = (y 0).val; omega
  | ⟨1, _⟩ => show win0_3.index t (1 : Fin 2) * 300 + 1 * (y 1).val = (y 1).val; omega

theorem blk5_eq (c : Dev nD) (t : Fin cfg0.N) :
    (iblk m c 5 t : S100x200.Idx → EReal) = m ((c : Thread nD τ).loc main_arg5) := by
  funext y
  show V m c main_arg5 (((cfg0.win 5).blk t).view.emb y) = _
  rw [V_main_arg5]
  refine congrArg _ (funext fun a => Fin.ext ?_)
  obtain ⟨e0, e1⟩ := idx5 t
  match a with
  | ⟨0, _⟩ => show win0_5.index t (0 : Fin 2) * 100 + 1 * (y 0).val = (y 0).val; omega
  | ⟨1, _⟩ => show win0_5.index t (1 : Fin 2) * 200 + 1 * (y 1).val = (y 1).val; omega

theorem blk7_eq (c : Dev nD) (t : Fin cfg0.N) :
    (iblk m c 7 t : S10x100.Idx → EReal) = m ((c : Thread nD τ).loc main_arg7) := by
  funext y
  show V m c main_arg7 (((cfg0.win 7).blk t).view.emb y) = _
  rw [V_main_arg7]
  refine congrArg _ (funext fun a => Fin.ext ?_)
  obtain ⟨e0, e1⟩ := idx7 t
  match a with
  | ⟨0, _⟩ => show win0_7.index t (0 : Fin 2) * 10 + 1 * (y 0).val = (y 0).val; omega
  | ⟨1, _⟩ => show win0_7.index t (1 : Fin 2) * 100 + 1 * (y 1).val = (y 1).val; omega

/-- The host makes each bias vector a row before the kernel: the row array is the vector recast. -/
theorem V_v0 (c : Dev nD) :
    (V m c main_v0 : S1x300.Idx → EReal) = shapeCast S1x300 (m ((c : Thread nD τ).loc main_arg2)) shapeCasts_S300_S1x300 := by
  dsimp only [Gen.V, Gen.hostOps0]; after_results; rfl
theorem V_v1 (c : Dev nD) :
    (V m c main_v1 : S1x200.Idx → EReal) = shapeCast S1x200 (m ((c : Thread nD τ).loc main_arg4)) shapeCasts_S200_S1x200 := by
  dsimp only [Gen.V, Gen.hostOps0]; after_results; rfl
theorem V_v2 (c : Dev nD) :
    (V m c main_v2 : S1x100.Idx → EReal) = shapeCast S1x100 (m ((c : Thread nD τ).loc main_arg6)) shapeCasts_S100_S1x100 := by
  dsimp only [Gen.V, Gen.hostOps0]; after_results; rfl
theorem V_v3 (c : Dev nD) :
    (V m c main_v3 : S1x10.Idx → EReal) = shapeCast S1x10 (m ((c : Thread nD τ).loc main_arg8)) shapeCasts_S10_S1x10 := by
  dsimp only [Gen.V, Gen.hostOps0]; after_results; rfl

/-- Each bias row's block, at (0, j), is entry j of the bias vector as launched. -/
theorem blk2_apply (c : Dev nD) (t : Fin cfg0.N) (j : Fin 300) :
    iblk m c 2 t (ix2 (0 : Fin 1) j) = m ((c : Thread nD τ).loc main_arg2) (ix1 j) := by
  show V m c main_v0 (((cfg0.win 2).blk t).view.emb (ix2 (0 : Fin 1) j)) = _
  have e : ((cfg0.win 2).blk t).view.emb (ix2 (0 : Fin 1) j) = ix2 (0 : Fin 1) j := funext fun a => Fin.ext (by
    obtain ⟨e0, e1⟩ := idx2 t
    match a with
    | ⟨0, _⟩ => show win0_2.index t (0 : Fin 2) * 1 + 1 * 0 = 0; omega
    | ⟨1, _⟩ => show win0_2.index t (1 : Fin 2) * 300 + 1 * j.val = j.val; omega)
  rw [e, V_v0]
  exact shapeCast_a_1a_apply _ _ 0 j

theorem blk4_apply (c : Dev nD) (t : Fin cfg0.N) (j : Fin 200) :
    iblk m c 4 t (ix2 (0 : Fin 1) j) = m ((c : Thread nD τ).loc main_arg4) (ix1 j) := by
  show V m c main_v1 (((cfg0.win 4).blk t).view.emb (ix2 (0 : Fin 1) j)) = _
  have e : ((cfg0.win 4).blk t).view.emb (ix2 (0 : Fin 1) j) = ix2 (0 : Fin 1) j := funext fun a => Fin.ext (by
    obtain ⟨e0, e1⟩ := idx4 t
    match a with
    | ⟨0, _⟩ => show win0_4.index t (0 : Fin 2) * 1 + 1 * 0 = 0; omega
    | ⟨1, _⟩ => show win0_4.index t (1 : Fin 2) * 200 + 1 * j.val = j.val; omega)
  rw [e, V_v1]
  exact shapeCast_a_1a_apply _ _ 0 j

theorem blk6_apply (c : Dev nD) (t : Fin cfg0.N) (j : Fin 100) :
    iblk m c 6 t (ix2 (0 : Fin 1) j) = m ((c : Thread nD τ).loc main_arg6) (ix1 j) := by
  show V m c main_v2 (((cfg0.win 6).blk t).view.emb (ix2 (0 : Fin 1) j)) = _
  have e : ((cfg0.win 6).blk t).view.emb (ix2 (0 : Fin 1) j) = ix2 (0 : Fin 1) j := funext fun a => Fin.ext (by
    obtain ⟨e0, e1⟩ := idx6 t
    match a with
    | ⟨0, _⟩ => show win0_6.index t (0 : Fin 2) * 1 + 1 * 0 = 0; omega
    | ⟨1, _⟩ => show win0_6.index t (1 : Fin 2) * 100 + 1 * j.val = j.val; omega)
  rw [e, V_v2]
  exact shapeCast_a_1a_apply _ _ 0 j

theorem blk8_apply (c : Dev nD) (t : Fin cfg0.N) (j : Fin 10) :
    iblk m c 8 t (ix2 (0 : Fin 1) j) = m ((c : Thread nD τ).loc main_arg8) (ix1 j) := by
  show V m c main_v3 (((cfg0.win 8).blk t).view.emb (ix2 (0 : Fin 1) j)) = _
  have e : ((cfg0.win 8).blk t).view.emb (ix2 (0 : Fin 1) j) = ix2 (0 : Fin 1) j := funext fun a => Fin.ext (by
    obtain ⟨e0, e1⟩ := idx8 t
    match a with
    | ⟨0, _⟩ => show win0_8.index t (0 : Fin 2) * 1 + 1 * 0 = 0; omega
    | ⟨1, _⟩ => show win0_8.index t (1 : Fin 2) * 10 + 1 * j.val = j.val; omega)
  rw [e, V_v3]
  exact shapeCast_a_1a_apply _ _ 0 j

/-! ## The result array -/

/-- G of the nine arguments as launched on core c. -/
def Gm (c : Dev nD) : S262144x10.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- Entry (p, j) of the result's block at point t is entry (2048·t + p, j) of the result array. -/
theorem emb9_eq (t : Fin cfg0.N) (p : Fin 2048) (q : Fin 10) :
    ((cfg0.win 9).blk t).view.emb (ix2 p q) = ix2 (row t p) q := funext fun a => Fin.ext (by
  obtain ⟨e0, e1⟩ := idx9 t
  match a with
  | ⟨0, _⟩ => show win0_9.index t (0 : Fin 2) * 2048 + 1 * p.val = t.val * 2048 + p.val; omega
  | ⟨1, _⟩ => show win0_9.index t (1 : Fin 2) * 10 + 1 * q.val = q.val; omega)

/-- WHAT POINT t WRITES BACK is block t of G of the arguments. -/
theorem flushed_eq (c : Dev nD) (t : Fin cfg0.N) :
    (dats m 0 c).flushed 9 t = ((cfg0.win 9).blk t).view.read (Elt Ideal) (Gm m c) := by
  rw [Value.flushed9, out_eq]
  funext j'
  obtain ⟨p, q, rfl⟩ : ∃ (p : Fin 2048) (q : Fin 10), j' = ix2 p q := ⟨j' 0, j' 1, eq_ix2 (n0 := 2048) (n1 := 10) j'⟩
  show netK (F := Ideal) (iblk m c 0 t) (iblk m c 1 t) (iblk m c 2 t) (iblk m c 3 t) (iblk m c 4 t) (iblk m c 5 t) (iblk m c 6 t)
      (iblk m c 7 t) (iblk m c 8 t) (ix2 p q) = Gm m c (((cfg0.win 9).blk t).view.emb (ix2 p q))
  rw [emb9_eq]
  refine (netK_apply (iblk m c 0 t) (iblk m c 1 t) (iblk m c 2 t) (iblk m c 3 t) (iblk m c 4 t) (iblk m c 5 t)
    (iblk m c 6 t) (iblk m c 7 t) (iblk m c 8 t) p q).trans ?_
  refine (mlpRow_congr (blk1_eq m c t) (funext (blk2_apply m c t)) (blk3_eq m c t) (funext (blk4_apply m c t))
    (blk5_eq m c t) (funext (blk6_apply m c t)) (blk7_eq m c t) (funext (blk8_apply m c t))
    (funext (blk0_apply m c t p)) q).trans ?_
  exact (G_apply _ _ _ _ _ _ _ _ _ (row t p) q).symm

/-- An index of the result array is in point t's block iff each coordinate is in the block's range on its axis. -/
theorem mem_blk9 (t : Fin cfg0.N) (i : S262144x10.Idx) :
    i ∈ ((cfg0.win 9).blk t).view.set ↔ ∀ a : Fin 2, win0_9.index t a * S2048x10.size a ≤ (i a).val ∧ (i a).val < win0_9.index t a * S2048x10.size a + S2048x10.size a := by
  show i ∈ ((View.whole main_v4).slice (win0_9.rect t)).set ↔ _
  rw [View.set_slice_whole, Rect.mem_set_unit]
  exact Iff.rfl

/-- The 128 blocks cover the result array (row r is in block r / 2048), so it ends holding G of the arguments. -/
theorem final9 (c : Dev nD) : (dats m 0 c).arrAt 9 cfg0.N = Gm m c :=
  (dats m 0 c).arrAt_eq_of_cover 9 (Gm m c) (fun t _ => flushed_eq m c t) fun i => by
    have hN : cfg0.N = 128 := N_0
    have h0 : (i 0).val < 262144 := (i 0).isLt
    have h1 : (i 1).val < 10 := (i 1).isLt
    have ht : (i 0).val / 2048 < cfg0.N := by omega
    obtain ⟨e0, e1⟩ := idx9 ⟨(i 0).val / 2048, ht⟩
    refine ⟨⟨(i 0).val / 2048, ht⟩, flush0_9 _, ?_⟩
    rw [mem_blk9]
    intro a
    match a with
    | ⟨0, _⟩ =>
      show win0_9.index ⟨(i 0).val / 2048, ht⟩ (0 : Fin 2) * 2048 ≤ (i 0).val ∧ (i 0).val < win0_9.index ⟨(i 0).val / 2048, ht⟩ (0 : Fin 2) * 2048 + 2048
      rw [e0]
      show (i 0).val / 2048 * 2048 ≤ (i 0).val ∧ (i 0).val < (i 0).val / 2048 * 2048 + 2048
      omega
    | ⟨1, _⟩ =>
      show win0_9.index ⟨(i 0).val / 2048, ht⟩ (1 : Fin 2) * 10 ≤ (i 1).val ∧ (i 1).val < win0_9.index ⟨(i 0).val / 2048, ht⟩ (1 : Fin 2) * 10 + 10
      rw [e1]
      omega

/-- THE KERNEL'S RUN: every weakly fair execution terminates with the result at G of the arguments as launched, and the
    arguments unchanged. -/
theorem run : θ_run defs (onTc (τ := τ) (main (F := Ideal))) ⟨m, fun _ => 0, ρ⟩ fun r => ∀ c : Dev nD,
      r.2.mem ((c : Thread nD τ).loc main_v4) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final9 m c), (h c).2⟩) (Value.run_blocks m ρ)

end Cert.KernelIdeal.NetValue

end
-- ==== Proof.RefLine.lean ====
/-
  THE REFERENCE PROGRAM AS ONE LINE OF HOST OPERATIONS.

  The reference computes the four layers one after the other. Each layer is twenty-nine host operations: the weights
  transposed, the dot product, the bias made a row and broadcast, the sum; the scale m and the offset 16384 broadcast
  and applied; the rounding toward zero (a zero, its broadcast, the comparison with it, the ceiling, the floor, the
  selection between them); the factor 2^-15 broadcast and applied, the floor; and the clamp to [0, 255] (each bound
  converted to its own type and broadcast, the maximum with the lower bound, the minimum with the upper). The rounding
  and the clamp are functions the program calls; a call runs the callee's operations on the call's own buffers, so
  the line below lists them in place. Every weakly fair execution of the program is a run of that line, and ends
  with every buffer at the fold of the operations over the launch contents.
-/
import proofs.«108363_j15049565405381_1_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- Layer 0: from the input rows to the requantised [262144, 300] activations in main_v13. -/
abbrev ops0 : List (HloOp τ sig (Elt F)) :=
  [ unary main_arg1 main_v0 (transpose S76x300 [1, 0] · transposes_S300x76_S76x300_1_0),
    binary main_arg0 main_v0 main_v1 (fun l r => Host.dotGeneral dot_S262144x76_S76x300_S262144x300_1_0_0_1_n_n none l r),
    unary main_arg2 main_v2 (broadcastInDim S1x300 ![1] bcast_S300_S1x300_1),
    unary main_v2 main_v3 (broadcastInDim S262144x300 ![0, 1] bcast_S1x300_S262144x300_0_1),
    binary main_v1 main_v3 main_v4 addf,
    nullary main_cst (constant S_ .f32 0x44BB8000#32),
    unary main_cst main_v5 (broadcastInDim S262144x300 ![] bcast_S_S262144x300),
    binary main_v4 main_v5 main_v6 mulf,
    nullary main_cst_0 (constant S_ .f32 0x46800000#32),
    unary main_cst_0 main_v7 (broadcastInDim S262144x300 ![] bcast_S_S262144x300),
    binary main_v6 main_v7 main_v8 addf,
    TRef.nullary main_call0.cst (constant S_ .f32 0x00000000#32),
    TRef.unary main_call0.cst main_call0.v0 (broadcastInDim S262144x300 ![] bcast_S_S262144x300),
    TRef.binary (.of main_v8) main_call0.v0 main_call0.v1 (cmpf .olt),
    TRef.unary (.of main_v8) main_call0.v2 Host.ceil,
    TRef.unary (.of main_v8) main_call0.v3 Host.floor,
    TRef.ternary main_call0.v1 main_call0.v2 main_call0.v3 main_call0.call0.v0 select,
    nullary main_cst_1 (constant S_ .f32 0x38000000#32),
    unary main_cst_1 main_v10 (broadcastInDim S262144x300 ![] bcast_S_S262144x300),
    binary main_v9 main_v10 main_v11 mulf,
    unary main_v11 main_v12 Host.floor,
    nullary main_cst_2 (constant S_ .f32 0x00000000#32),
    nullary main_cst_3 (constant S_ .f32 0x437F0000#32),
    TRef.unary (.of main_cst_2) main_call1.v0 id,
    TRef.unary main_call1.v0 main_call1.v1 (broadcastInDim S262144x300 ![] bcast_S_S262144x300),
    TRef.binary main_call1.v1 (.of main_v12) main_call1.v2 maximumf,
    TRef.unary (.of main_cst_3) main_call1.v3 id,
    TRef.unary main_call1.v3 main_call1.v4 (broadcastInDim S262144x300 ![] bcast_S_S262144x300),
    TRef.binary main_call1.v4 main_call1.v2 main_call1.v5 minimumf ]

/-- Layer 1: from main_v13 to the requantised [262144, 200] activations in main_v27. -/
abbrev ops1 : List (HloOp τ sig (Elt F)) :=
  [ unary main_arg3 main_v14 (transpose S300x200 [1, 0] · transposes_S200x300_S300x200_1_0),
    binary main_v13 main_v14 main_v15 (fun l r => Host.dotGeneral dot_S262144x300_S300x200_S262144x200_1_0_0_1_n_n none l r),
    unary main_arg4 main_v16 (broadcastInDim S1x200 ![1] bcast_S200_S1x200_1),
    unary main_v16 main_v17 (broadcastInDim S262144x200 ![0, 1] bcast_S1x200_S262144x200_0_1),
    binary main_v15 main_v17 main_v18 addf,
    nullary main_cst_4 (constant S_ .f32 0x44AF0000#32),
    unary main_cst_4 main_v19 (broadcastInDim S262144x200 ![] bcast_S_S262144x200),
    binary main_v18 main_v19 main_v20 mulf,
    nullary main_cst_5 (constant S_ .f32 0x46800000#32),
    unary main_cst_5 main_v21 (broadcastInDim S262144x200 ![] bcast_S_S262144x200),
    binary main_v20 main_v21 main_v22 addf,
    TRef.nullary main_call2.cst (constant S_ .f32 0x00000000#32),
    TRef.unary main_call2.cst main_call2.v0 (broadcastInDim S262144x200 ![] bcast_S_S262144x200),
    TRef.binary (.of main_v22) main_call2.v0 main_call2.v1 (cmpf .olt),
    TRef.unary (.of main_v22) main_call2.v2 Host.ceil,
    TRef.unary (.of main_v22) main_call2.v3 Host.floor,
    TRef.ternary main_call2.v1 main_call2.v2 main_call2.v3 main_call2.call0.v0 select,
    nullary main_cst_6 (constant S_ .f32 0x38000000#32),
    unary main_cst_6 main_v24 (broadcastInDim S262144x200 ![] bcast_S_S262144x200),
    binary main_v23 main_v24 main_v25 mulf,
    unary main_v25 main_v26 Host.floor,
    nullary main_cst_7 (constant S_ .f32 0x00000000#32),
    nullary main_cst_8 (constant S_ .f32 0x437F0000#32),
    TRef.unary (.of main_cst_7) main_call3.v0 id,
    TRef.unary main_call3.v0 main_call3.v1 (broadcastInDim S262144x200 ![] bcast_S_S262144x200),
    TRef.binary main_call3.v1 (.of main_v26) main_call3.v2 maximumf,
    TRef.unary (.of main_cst_8) main_call3.v3 id,
    TRef.unary main_call3.v3 main_call3.v4 (broadcastInDim S262144x200 ![] bcast_S_S262144x200),
    TRef.binary main_call3.v4 main_call3.v2 main_call3.v5 minimumf ]

/-- Layer 2: from main_v27 to the requantised [262144, 100] activations in main_v41. -/
abbrev ops2 : List (HloOp τ sig (Elt F)) :=
  [ unary main_arg5 main_v28 (transpose S200x100 [1, 0] · transposes_S100x200_S200x100_1_0),
    binary main_v27 main_v28 main_v29 (fun l r => Host.dotGeneral dot_S262144x200_S200x100_S262144x100_1_0_0_1_n_n none l r),
    unary main_arg6 main_v30 (broadcastInDim S1x100 ![1] bcast_S100_S1x100_1),
    unary main_v30 main_v31 (broadcastInDim S262144x100 ![0, 1] bcast_S1x100_S262144x100_0_1),
    binary main_v29 main_v31 main_v32 addf,
    nullary main_cst_9 (constant S_ .f32 0x44A28000#32),
    unary main_cst_9 main_v33 (broadcastInDim S262144x100 ![] bcast_S_S262144x100),
    binary main_v32 main_v33 main_v34 mulf,
    nullary main_cst_10 (constant S_ .f32 0x46800000#32),
    unary main_cst_10 main_v35 (broadcastInDim S262144x100 ![] bcast_S_S262144x100),
    binary main_v34 main_v35 main_v36 addf,
    TRef.nullary main_call4.cst (constant S_ .f32 0x00000000#32),
    TRef.unary main_call4.cst main_call4.v0 (broadcastInDim S262144x100 ![] bcast_S_S262144x100),
    TRef.binary (.of main_v36) main_call4.v0 main_call4.v1 (cmpf .olt),
    TRef.unary (.of main_v36) main_call4.v2 Host.ceil,
    TRef.unary (.of main_v36) main_call4.v3 Host.floor,
    TRef.ternary main_call4.v1 main_call4.v2 main_call4.v3 main_call4.call0.v0 select,
    nullary main_cst_11 (constant S_ .f32 0x38000000#32),
    unary main_cst_11 main_v38 (broadcastInDim S262144x100 ![] bcast_S_S262144x100),
    binary main_v37 main_v38 main_v39 mulf,
    unary main_v39 main_v40 Host.floor,
    nullary main_cst_12 (constant S_ .f32 0x00000000#32),
    nullary main_cst_13 (constant S_ .f32 0x437F0000#32),
    TRef.unary (.of main_cst_12) main_call5.v0 id,
    TRef.unary main_call5.v0 main_call5.v1 (broadcastInDim S262144x100 ![] bcast_S_S262144x100),
    TRef.binary main_call5.v1 (.of main_v40) main_call5.v2 maximumf,
    TRef.unary (.of main_cst_13) main_call5.v3 id,
    TRef.unary main_call5.v3 main_call5.v4 (broadcastInDim S262144x100 ![] bcast_S_S262144x100),
    TRef.binary main_call5.v4 main_call5.v2 main_call5.v5 minimumf ]

/-- Layer 3: from main_v41 to the requantised [262144, 10] result in main_v55. -/
abbrev ops3 : List (HloOp τ sig (Elt F)) :=
  [ unary main_arg7 main_v42 (transpose S100x10 [1, 0] · transposes_S10x100_S100x10_1_0),
    binary main_v41 main_v42 main_v43 (fun l r => Host.dotGeneral dot_S262144x100_S100x10_S262144x10_1_0_0_1_n_n none l r),
    unary main_arg8 main_v44 (broadcastInDim S1x10 ![1] bcast_S10_S1x10_1),
    unary main_v44 main_v45 (broadcastInDim S262144x10 ![0, 1] bcast_S1x10_S262144x10_0_1),
    binary main_v43 main_v45 main_v46 addf,
    nullary main_cst_14 (constant S_ .f32 0x44960000#32),
    unary main_cst_14 main_v47 (broadcastInDim S262144x10 ![] bcast_S_S262144x10),
    binary main_v46 main_v47 main_v48 mulf,
    nullary main_cst_15 (constant S_ .f32 0x46800000#32),
    unary main_cst_15 main_v49 (broadcastInDim S262144x10 ![] bcast_S_S262144x10),
    binary main_v48 main_v49 main_v50 addf,
    TRef.nullary main_call6.cst (constant S_ .f32 0x00000000#32),
    TRef.unary main_call6.cst main_call6.v0 (broadcastInDim S262144x10 ![] bcast_S_S262144x10),
    TRef.binary (.of main_v50) main_call6.v0 main_call6.v1 (cmpf .olt),
    TRef.unary (.of main_v50) main_call6.v2 Host.ceil,
    TRef.unary (.of main_v50) main_call6.v3 Host.floor,
    TRef.ternary main_call6.v1 main_call6.v2 main_call6.v3 main_call6.call0.v0 select,
    nullary main_cst_16 (constant S_ .f32 0x38000000#32),
    unary main_cst_16 main_v52 (broadcastInDim S262144x10 ![] bcast_S_S262144x10),
    binary main_v51 main_v52 main_v53 mulf,
    unary main_v53 main_v54 Host.floor,
    nullary main_cst_17 (constant S_ .f32 0x00000000#32),
    nullary main_cst_18 (constant S_ .f32 0x437F0000#32),
    TRef.unary (.of main_cst_17) main_call7.v0 id,
    TRef.unary main_call7.v0 main_call7.v1 (broadcastInDim S262144x10 ![] bcast_S_S262144x10),
    TRef.binary main_call7.v1 (.of main_v54) main_call7.v2 maximumf,
    TRef.unary (.of main_cst_18) main_call7.v3 id,
    TRef.unary main_call7.v3 main_call7.v4 (broadcastInDim S262144x10 ![] bcast_S_S262144x10),
    TRef.binary main_call7.v4 main_call7.v2 main_call7.v5 minimumf ]

/-- The whole line: the four layers in order. -/
abbrev ops : List (HloOp τ sig (Elt F)) := ops0 ++ (ops1 ++ (ops2 ++ ops3))

/-- The fold over a line made of two is the second's fold after the first's. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- A property of every operation of two lines holds of every operation of their concatenation. -/
theorem forall_append' {p : HloOp τ sig (Elt F) → Prop} {l₁ l₂ : List (HloOp τ sig (Elt F))}
    (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

-- one hundred and sixteen binds re-associated: the rewriting under the chain recurses once per statement
set_option maxRecDepth 8192 in
set_option maxHeartbeats 4000000 in
/-- The program is that line: with the called functions unfolded at their calls and the two halves of the program
    joined, both sides are one chain of host steps once sequencing is re-associated. -/
theorem main_eq (c : Dev nD) : main (F := F) c = seq ops := by
  simp only [main, main_part0, main_part1, fn_trunc.body, fn_trunc_0.body, fn_trunc_3.body, fn_trunc_6.body,
    fn_where.body, fn_where_1.body, fn_where_4.body, fn_where_7.body, fn_clip.body, fn_clip_2.body, fn_clip_5.body,
    fn_clip_8.body, ops, ops0, ops1, ops2, ops3, seq_append, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., unary_bufs_sub .., unary_bufs_sub .., ternary_bufs_sub .., nullary_bufs_sub ..,
    unary_bufs_sub .., binary_bufs_sub .., unary_bufs_sub .., nullary_bufs_sub .., nullary_bufs_sub .., unary_bufs_sub ..,
    unary_bufs_sub .., binary_bufs_sub .., unary_bufs_sub .., unary_bufs_sub .., binary_bufs_sub ..⟩
theorem ops1_sub : (ops1 : List (HloOp τ sig (Elt F))).Forall fun op => op.bufs ⊆ tcRefs τ sig :=
  ⟨unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., unary_bufs_sub .., unary_bufs_sub .., ternary_bufs_sub .., nullary_bufs_sub ..,
    unary_bufs_sub .., binary_bufs_sub .., unary_bufs_sub .., nullary_bufs_sub .., nullary_bufs_sub .., unary_bufs_sub ..,
    unary_bufs_sub .., binary_bufs_sub .., unary_bufs_sub .., unary_bufs_sub .., binary_bufs_sub ..⟩
theorem ops2_sub : (ops2 : List (HloOp τ sig (Elt F))).Forall fun op => op.bufs ⊆ tcRefs τ sig :=
  ⟨unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., unary_bufs_sub .., unary_bufs_sub .., ternary_bufs_sub .., nullary_bufs_sub ..,
    unary_bufs_sub .., binary_bufs_sub .., unary_bufs_sub .., nullary_bufs_sub .., nullary_bufs_sub .., unary_bufs_sub ..,
    unary_bufs_sub .., binary_bufs_sub .., unary_bufs_sub .., unary_bufs_sub .., binary_bufs_sub ..⟩
theorem ops3_sub : (ops3 : List (HloOp τ sig (Elt F))).Forall fun op => op.bufs ⊆ tcRefs τ sig :=
  ⟨unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., binary_bufs_sub .., unary_bufs_sub .., unary_bufs_sub .., ternary_bufs_sub .., nullary_bufs_sub ..,
    unary_bufs_sub .., binary_bufs_sub .., unary_bufs_sub .., nullary_bufs_sub .., nullary_bufs_sub .., unary_bufs_sub ..,
    unary_bufs_sub .., binary_bufs_sub .., unary_bufs_sub .., unary_bufs_sub .., binary_bufs_sub ..⟩

theorem ops_sub : (ops : List (HloOp τ sig (Elt F))).Forall fun op => op.bufs ⊆ tcRefs τ sig :=
  forall_append' ops0_sub (forall_append' ops1_sub (forall_append' ops2_sub ops3_sub))

theorem ops0_fresh : (ops0 : List (HloOp τ sig (Elt F))).Forall fun op => op.fresh = ∅ := by
  simp only [List.Forall]; repeat' constructor
theorem ops1_fresh : (ops1 : List (HloOp τ sig (Elt F))).Forall fun op => op.fresh = ∅ := by
  simp only [List.Forall]; repeat' constructor
theorem ops2_fresh : (ops2 : List (HloOp τ sig (Elt F))).Forall fun op => op.fresh = ∅ := by
  simp only [List.Forall]; repeat' constructor
theorem ops3_fresh : (ops3 : List (HloOp τ sig (Elt F))).Forall fun op => op.fresh = ∅ := by
  simp only [List.Forall]; repeat' constructor

/-- No operation of the line allocates: each determines its results. -/
theorem ops_fresh : ∀ op ∈ (ops : List (HloOp τ sig (Elt F))), op.fresh = ∅ :=
  List.forall_iff_forall_mem.mp (forall_append' ops0_fresh (forall_append' ops1_fresh (forall_append' ops2_fresh ops3_fresh)))

/-- From any memory with zero counters, every weakly fair execution of the reference terminates, and every final
    state has each buffer at the fold of the line over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.Line

end
-- ==== Proof.RefValue.lean ====
/-
  WHAT THE REFERENCE COMPUTES.

  Reading the line of host operations layer by layer: after a layer's twenty-nine operations its output buffer holds
  the host's layer function (Layer.lean) of the layer's input buffer, its weights and its bias, and no layer writes an
  argument. So the result buffer ends holding the four host layers composed, and, read at an index on the extended
  reals, that is the row network on the index's row (Net.lean): the function G of the nine arguments.
-/
import proofs.«108363_j15049565405381_1_alg».proof.Proof.RefLine
import proofs.«108363_j15049565405381_1_alg».proof.Proof.Net

noncomputable section

namespace Cert.ReferenceIdeal.RefValue

open Cert.ReferenceIdeal Cert.ReferenceIdeal.Gen Cert.ReferenceIdeal.Line Idealize.ShloMosaic Idealize.ShloMosaic.TcCoe
  Idealize.SL.Sem Idealize.ShloMosaic.StableHlo Idealize.ShloMosaic.ValueIdx Cert.Mlp

section AnyValues

variable {F : FTy → Type} [FloatOps F]

/-- The four host layers composed. -/
def netH (X : FVec F S262144x76 .f32) (W0 : FVec F S300x76 .f32) (b0 : FVec F S300 .f32) (W1 : FVec F S200x300 .f32)
    (b1 : FVec F S200 .f32) (W2 : FVec F S100x200 .f32) (b2 : FVec F S100 .f32) (W3 : FVec F S10x100 .f32)
    (b3 : FVec F S10 .f32) : FVec F S262144x10 .f32 :=
  layerH 0x44960000#32 dot_S262144x100_S100x10_S262144x10_1_0_0_1_n_n transposes_S10x100_S100x10_1_0 bcast_S10_S1x10_1
      bcast_S1x10_S262144x10_0_1 bcast_S_S262144x10
    (layerH 0x44A28000#32 dot_S262144x200_S200x100_S262144x100_1_0_0_1_n_n transposes_S100x200_S200x100_1_0 bcast_S100_S1x100_1
        bcast_S1x100_S262144x100_0_1 bcast_S_S262144x100
      (layerH 0x44AF0000#32 dot_S262144x300_S300x200_S262144x200_1_0_0_1_n_n transposes_S200x300_S300x200_1_0 bcast_S200_S1x200_1
          bcast_S1x200_S262144x200_0_1 bcast_S_S262144x200
        (layerH 0x44BB8000#32 dot_S262144x76_S76x300_S262144x300_1_0_0_1_n_n transposes_S300x76_S76x300_1_0 bcast_S300_S1x300_1
            bcast_S1x300_S262144x300_0_1 bcast_S_S262144x300 X W0 b0)
        W1 b1)
      W2 b2)
    W3 b3

/-! ## Each layer's output buffer -/

theorem out0 (V : Valuation τ sig (Elt F)) :
    after ops0 V (main_v13 : DevRef τ sig)
      = layerH 0x44BB8000#32 dot_S262144x76_S76x300_S262144x300_1_0_0_1_n_n transposes_S300x76_S76x300_1_0 bcast_S300_S1x300_1
          bcast_S1x300_S262144x300_0_1 bcast_S_S262144x300
          (V (main_arg0 : DevRef τ sig)) (V (main_arg1 : DevRef τ sig)) (V (main_arg2 : DevRef τ sig)) := by
  after_results_simp <;> (try simp only [TRef.ofBuf, TRef.toBuf, cast_eq]) <;> rfl

theorem out1 (V : Valuation τ sig (Elt F)) :
    after ops1 V (main_v27 : DevRef τ sig)
      = layerH 0x44AF0000#32 dot_S262144x300_S300x200_S262144x200_1_0_0_1_n_n transposes_S200x300_S300x200_1_0 bcast_S200_S1x200_1
          bcast_S1x200_S262144x200_0_1 bcast_S_S262144x200
          (V (main_v13 : DevRef τ sig)) (V (main_arg3 : DevRef τ sig)) (V (main_arg4 : DevRef τ sig)) := by
  after_results_simp <;> (try simp only [TRef.ofBuf, TRef.toBuf, cast_eq]) <;> rfl

theorem out2 (V : Valuation τ sig (Elt F)) :
    after ops2 V (main_v41 : DevRef τ sig)
      = layerH 0x44A28000#32 dot_S262144x200_S200x100_S262144x100_1_0_0_1_n_n transposes_S100x200_S200x100_1_0 bcast_S100_S1x100_1
          bcast_S1x100_S262144x100_0_1 bcast_S_S262144x100
          (V (main_v27 : DevRef τ sig)) (V (main_arg5 : DevRef τ sig)) (V (main_arg6 : DevRef τ sig)) := by
  after_results_simp <;> (try simp only [TRef.ofBuf, TRef.toBuf, cast_eq]) <;> rfl

theorem out3 (V : Valuation τ sig (Elt F)) :
    after ops3 V (main_v55 : DevRef τ sig)
      = layerH 0x44960000#32 dot_S262144x100_S100x10_S262144x10_1_0_0_1_n_n transposes_S10x100_S100x10_1_0 bcast_S10_S1x10_1
          bcast_S1x10_S262144x10_0_1 bcast_S_S262144x10
          (V (main_v41 : DevRef τ sig)) (V (main_arg7 : DevRef τ sig)) (V (main_arg8 : DevRef τ sig)) := by
  after_results_simp <;> (try simp only [TRef.ofBuf, TRef.toBuf, cast_eq]) <;> rfl

/-! ## No layer writes an argument -/

/-- The nine arguments hold in V' what they hold in V. -/
def Kept (V' V : Valuation τ sig (Elt F)) : Prop :=
  V' (main_arg0 : DevRef τ sig) = V (main_arg0 : DevRef τ sig) ∧ V' (main_arg1 : DevRef τ sig) = V (main_arg1 : DevRef τ sig)
  ∧ V' (main_arg2 : DevRef τ sig) = V (main_arg2 : DevRef τ sig) ∧ V' (main_arg3 : DevRef τ sig) = V (main_arg3 : DevRef τ sig)
  ∧ V' (main_arg4 : DevRef τ sig) = V (main_arg4 : DevRef τ sig) ∧ V' (main_arg5 : DevRef τ sig) = V (main_arg5 : DevRef τ sig)
  ∧ V' (main_arg6 : DevRef τ sig) = V (main_arg6 : DevRef τ sig) ∧ V' (main_arg7 : DevRef τ sig) = V (main_arg7 : DevRef τ sig)
  ∧ V' (main_arg8 : DevRef τ sig) = V (main_arg8 : DevRef τ sig)

theorem Kept.trans {V'' V' V : Valuation τ sig (Elt F)} (h : Kept V'' V') (h' : Kept V' V) : Kept V'' V :=
  ⟨h.1.trans h'.1, h.2.1.trans h'.2.1, h.2.2.1.trans h'.2.2.1, h.2.2.2.1.trans h'.2.2.2.1,
    h.2.2.2.2.1.trans h'.2.2.2.2.1, h.2.2.2.2.2.1.trans h'.2.2.2.2.2.1, h.2.2.2.2.2.2.1.trans h'.2.2.2.2.2.2.1,
    h.2.2.2.2.2.2.2.1.trans h'.2.2.2.2.2.2.2.1, h.2.2.2.2.2.2.2.2.trans h'.2.2.2.2.2.2.2.2⟩

theorem keep0 (V : Valuation τ sig (Elt F)) : Kept (after ops0 V) V := by
  unfold Kept; refine ⟨?_, ?_, ?_, ?_, ?_, ?_, ?_, ?_, ?_⟩ <;> after_results_simp
theorem keep1 (V : Valuation τ sig (Elt F)) : Kept (after ops1 V) V := by
  unfold Kept; refine ⟨?_, ?_, ?_, ?_, ?_, ?_, ?_, ?_, ?_⟩ <;> after_results_simp
theorem keep2 (V : Valuation τ sig (Elt F)) : Kept (after ops2 V) V := by
  unfold Kept; refine ⟨?_, ?_, ?_, ?_, ?_, ?_, ?_, ?_, ?_⟩ <;> after_results_simp
theorem keep3 (V : Valuation τ sig (Elt F)) : Kept (after ops3 V) V := by
  unfold Kept; refine ⟨?_, ?_, ?_, ?_, ?_, ?_, ?_, ?_, ?_⟩ <;> after_results_simp

/-- The whole line writes no argument. -/
theorem kept (V : Valuation τ sig (Elt F)) : Kept (after ops V) V := by
  simp only [ops, after_append']
  exact (keep3 _).trans ((keep2 _).trans ((keep1 _).trans (keep0 V)))

/-- After the whole line the result buffer holds the four host layers of the arguments. -/
theorem result_eq (V : Valuation τ sig (Elt F)) :
    after ops V (main_v55 : DevRef τ sig)
      = netH (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  simp only [ops, after_append']
  have k0 := keep0 V
  have k1 := keep1 (after ops0 V)
  have k2 := keep2 (after ops1 (after ops0 V))
  unfold Kept at k0 k1 k2
  rw [out3, out2, out1, out0, k2.2.2.2.2.2.2.2.1, k2.2.2.2.2.2.2.2.2, k1.2.2.2.2.2.2.2.1, k1.2.2.2.2.2.2.2.2,
    k1.2.2.2.2.2.1, k1.2.2.2.2.2.2.1, k0.2.2.2.2.2.2.2.1, k0.2.2.2.2.2.2.2.2, k0.2.2.2.2.2.1, k0.2.2.2.2.2.2.1,
    k0.2.2.2.1, k0.2.2.2.2.1]
  rfl

end AnyValues

/-! ## On the extended reals -/

theorem plain0 : Cert.Lib.PlainDot.Plain dot_S262144x76_S76x300_S262144x300_1_0_0_1_n_n := ⟨rfl, rfl, rfl, rfl, rfl, rfl⟩
theorem plain1 : Cert.Lib.PlainDot.Plain dot_S262144x300_S300x200_S262144x200_1_0_0_1_n_n := ⟨rfl, rfl, rfl, rfl, rfl, rfl⟩
theorem plain2 : Cert.Lib.PlainDot.Plain dot_S262144x200_S200x100_S262144x100_1_0_0_1_n_n := ⟨rfl, rfl, rfl, rfl, rfl, rfl⟩
theorem plain3 : Cert.Lib.PlainDot.Plain dot_S262144x100_S100x10_S262144x10_1_0_0_1_n_n := ⟨rfl, rfl, rfl, rfl, rfl, rfl⟩

/-- The four host layers composed are G: at (p, j) each layer is the row layer of row p of its input, and row p of a
    layer's output is the row layer of row p of its input, so the composition is the row network on row p. -/
theorem netH_eq_G (X : FVec Ideal S262144x76 .f32) (W0 : FVec Ideal S300x76 .f32) (b0 : FVec Ideal S300 .f32)
    (W1 : FVec Ideal S200x300 .f32) (b1 : FVec Ideal S200 .f32) (W2 : FVec Ideal S100x200 .f32) (b2 : FVec Ideal S100 .f32)
    (W3 : FVec Ideal S10x100 .f32) (b3 : FVec Ideal S10 .f32) :
    netH X W0 b0 W1 b1 W2 b2 W3 b3 = G X W0 b0 W1 b1 W2 b2 W3 b3 := by
  funext i
  obtain ⟨p, q, rfl⟩ : ∃ (p : Fin 262144) (q : Fin 10), i = ix2 p q := ⟨i 0, i 1, eq_ix2 i⟩
  rw [G_apply]
  unfold netH
  rw [layerH_apply _ _ plain3]
  simp only [layerH_apply _ _ plain2, layerH_apply _ _ plain1, layerH_apply _ _ plain0]
  rfl

/-- THE REFERENCE'S RUN: every weakly fair execution terminates with the result at G of the arguments as launched, and
    the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v55)
        = G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
      have k := kept (launchContents m c)
      ⟨(h c main_v55).trans ((result_eq (launchContents m c)).trans (netH_eq_G _ _ _ _ _ _ _ _ _)),
        (h c main_arg0).trans k.1, (h c main_arg1).trans k.2.1, (h c main_arg2).trans k.2.2.1,
        (h c main_arg3).trans k.2.2.2.1, (h c main_arg4).trans k.2.2.2.2.1, (h c main_arg5).trans k.2.2.2.2.2.1,
        (h c main_arg6).trans k.2.2.2.2.2.2.1, (h c main_arg7).trans k.2.2.2.2.2.2.2.1, (h c main_arg8).trans k.2.2.2.2.2.2.2.2⟩)
    (Line.run_main m ρ)

end Cert.ReferenceIdeal.RefValue

end
-- ==== Proof.lean ====
/-
  A four-layer network with a fixed-point requantisation after every layer, 76 → 300 → 200 → 100 → 10 on 262144 rows:
  the kernel (one launch over 128 blocks of 2048 rows, all four layers fused) against the plain host reference.

  Each layer is z = x · Wᵀ + b followed, entry by entry, by q(z) = clamp(floor(trunc(z · m + 16384) · 2^-15), 0, 255),
  with trunc written as "ceiling if negative, floor otherwise". On the extended reals the vector unit's product into a
  zero accumulator and the host's dot product are the same finite sum, the two units' floor and ceiling are one
  function, and every constant is the same binary32 word on both sides; so a layer is, on both sides, the same
  function of a row (Layer.lean). A layer maps row p to row p, hence so does the network (Net.lean), and a block of
  rows can be computed apart from the rest: the kernel's 128 stored blocks are the blocks of the one array G of the
  arguments (KernelValue.lean), and the reference's line of host operations ends with its result at the same G
  (RefLine.lean, RefValue.lean). No law of arithmetic beyond reading both programs at an index is used, so the
  finiteness of the inputs is never opened. The ideal pass rewrote nothing: the idealization claim is trivial. The
  three frames are the generated frame runs (the reference's is its run with the result dropped).
-/
import proofs.«108363_j15049565405381_1_alg».proof.Defs
import proofs.«108363_j15049565405381_1_alg».proof.Proof.Gen.Kernel
import proofs.«108363_j15049565405381_1_alg».proof.Proof.Gen.Kernel.Skeleton
import proofs.«108363_j15049565405381_1_alg».proof.Proof.Gen.Kernel.Launch
import proofs.«108363_j15049565405381_1_alg».proof.Proof.Gen.Kernel.Points
import proofs.«108363_j15049565405381_1_alg».proof.Proof.Gen.Kernel.Frame
import proofs.«108363_j15049565405381_1_alg».proof.Proof.Gen.KernelIdeal
import proofs.«108363_j15049565405381_1_alg».proof.Proof.Gen.KernelIdeal.Skeleton
import proofs.«108363_j15049565405381_1_alg».proof.Proof.Gen.KernelIdeal.Launch
import proofs.«108363_j15049565405381_1_alg».proof.Proof.Gen.KernelIdeal.Points
import proofs.«108363_j15049565405381_1_alg».proof.Proof.Gen.KernelIdeal.Frame
import proofs.«108363_j15049565405381_1_alg».proof.Proof.Gen.KernelIdeal.Value
import proofs.«108363_j15049565405381_1_alg».proof.Proof.Gen.ReferenceIdeal
import proofs.«108363_j15049565405381_1_alg».proof.Proof.Gen.Pre_finite_inputs
import proofs.«108363_j15049565405381_1_alg».proof.Proof.KernelValue
import proofs.«108363_j15049565405381_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefValue.run m ρ)

/-- The ideal pass rewrote no operation. -/
theorem preserves : Cert.preserves_Kernel_KernelIdeal := trivial

/-- Both runs end with the result at G of the arguments, and the two programs' arguments agree. -/
theorem algebraic : Cert.algebraic_KernelIdeal_ReferenceIdeal := by
  intro m ρ m' ρ' _ hagree
  refine ⟨fun c => Cert.KernelIdeal.NetValue.Gm m c, Cert.KernelIdeal.NetValue.run m ρ, ?_⟩
  refine (θ_run Cert.ReferenceIdeal.defs _ _).mono (fun _ h c => ⟨(h c).1.trans ?_, (h c).2⟩)
    (Cert.ReferenceIdeal.RefValue.run m' ρ')
  obtain ⟨a0, a1, a2, a3, a4, a5, a6, a7, a8⟩ := hagree c
  rw [a0, a1, a2, a3, a4, a5, a6, a7, a8]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
